-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x4096 .f32 .bf16
  ∧ IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x512x4096 : Shape := ⟨3, ![16, 512, 4096]⟩
abbrev S16x1024x4096 : Shape := ⟨3, ![16, 1024, 4096]⟩
abbrev S16x512x512 : Shape := ⟨3, ![16, 512, 512]⟩
abbrev S1x512x4096 : Shape := ⟨3, ![1, 512, 4096]⟩
abbrev S1x1024x1024 : Shape := ⟨3, ![1, 1024, 1024]⟩
abbrev S1x512x512 : Shape := ⟨3, ![1, 512, 512]⟩
abbrev S512x512 : Shape := ⟨2, ![512, 512]⟩
abbrev S512x4096 : Shape := ⟨2, ![512, 4096]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S16x1024x64x64 : Shape := ⟨4, ![16, 1024, 64, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x1024x4096, .f32⟩
  | .hbm, ⟨5, _⟩ => ⟨S16x512x512, .f32⟩
  | .hbm, ⟨6, _⟩ => ⟨S16x1024x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x512, .f32⟩
  | .local _ .vmem, ⟨5, _⟩ => ⟨S1x512x512, .f32⟩
  | .local _ .vmem, ⟨6, _⟩ => ⟨S512x512, .bf16⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 3 → Nat :=
  let c0_2 : Index := 0#32
  let c0_3 : Index := 0#32
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  ![0, 0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  transposes_S512x512_p1_0_S512x512 : S512x512.Transposes [1, 0] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  h_S1x512x1024 : 0 < S1x512x1024.numel
  shapeCasts_S1x512x1024_S512x1024 : S1x512x1024.ShapeCasts S512x1024
  inb_S1x1024x1024_S1x512x1024_0_0_0 : ∀ a, (![0, 0, 0] : Fin 3 → Nat) a + S1x512x1024.size a ≤ S1x1024x1024.size a
  shapeCasts_S512x1024_S1x512x1024 : S512x1024.ShapeCasts S1x512x1024
  inb_S1x1024x1024_S1x512x1024_0_512_0 : ∀ a, (![0, 512, 0] : Fin 3 → Nat) a + S1x512x1024.size a ≤ S1x1024x1024.size a
  shapeCasts_S16x1024x4096_S16x1024x64x64 : S16x1024x4096.ShapeCasts S16x1024x64x64
  dot_S512x4096_S512x4096_S512x512_1_1_0_0_n_n_wf : DotDims.WF S512x4096 S512x4096 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x512x1024.size a ≤ S1x512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x4096.size a
  hwx0_2 : ∀ i : grid0.Coords, EltTy.bits .f32 = 32 ∨ (Rect.block (s := S16x1024x4096) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x512x512.size a
  hwx0_3 : ∀ i : grid0.Coords, EltTy.bits .f32 = 32 ∨ (Rect.block (s := S16x512x512) S1x512x512.size (cc0_transform_3 i) (hinb0_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) | ⟨_ + 4, h⟩ => absurd h (Nat.not_lt.2 (Nat.le_add_left _ _))

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩
abbrev S16x512 : Shape := ⟨2, ![16, 512]⟩
abbrev S16x512x1 : Shape := ⟨3, ![16, 512, 1]⟩
abbrev S16x1024x64x64 : Shape := ⟨4, ![16, 1024, 64, 64]⟩

abbrev nBuf : Space → Nat
  | .hbm => 22
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512x1, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S_, .f32⟩
  | .hbm, ⟨15, _⟩ => ⟨S16x512, .f32⟩
  | .hbm, ⟨16, _⟩ => ⟨S16x512x1, .f32⟩
  | .hbm, ⟨17, _⟩ => ⟨S16x512x512, .f32⟩
  | .hbm, ⟨18, _⟩ => ⟨S16x512x512, .f32⟩
  | .hbm, ⟨19, _⟩ => ⟨S16x512x4096, .f32⟩
  | .hbm, ⟨20, _⟩ => ⟨S16x512x64x64, .f32⟩
  | .hbm, ⟨21, _⟩ => ⟨S16x1024x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  reducesTo_S16x512x512_S16x512_d2 : S16x512x512.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  shapeCasts_S16x512x4096_S16x512x64x64 : S16x512x4096.ShapeCasts S16x512x64x64
  concatenates_S16x512x64x64_S16x512x64x64_S16x1024x64x64_d1 : Shape.Concatenates [S16x512x64x64, S16x512x64x64] S16x1024x64x64 1
  dot_S16x512x4096_S16x512x4096_S16x512x512_2_2_1_1_0_0_wf : DotDims.WF S16x512x4096 S16x512x4096 S16x512x512 [2] [2] [1] [1] [0] [0]
  dot_S16x512x512_S16x512x4096_S16x512x4096_1_1_2_2_0_0_wf : DotDims.WF S16x512x512 S16x512x4096 S16x512x4096 [1] [1] [2] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_1_1_2_2_0_0 : DotDims S16x512x512 S16x512x4096 S16x512x4096 where
  lhsContracting := [1]
  rhsContracting := [1]
  lhsNonContracting := [2]
  rhsNonContracting := [2]
  lhsBatch := [0]
  rhsBatch := [0]
  wf := dot_S16x512x512_S16x512x4096_S16x512x4096_1_1_2_2_0_0_wf

class Facts : Prop extends Facts₀ where

variable [Facts]
-- ==== Proof.BodyBits.Shared.lean ====
/-
  The attention kernel's grid is 16 batches by 4 column tiles, walked batch-major: point `t` is batch `t / 4`, tile `t % 4`.
  The body branches once, on "tile = 0": there it forms the batch's softmax matrix from the two resident input blocks,
  stores it into the second output's staging buffer and its transpose into the scratch buffer; at every point it
  multiplies the scratch (the transposed softmax) with the tile of the first input and stores the tile and the product
  as the upper and lower halves of the first output's block. This module fixes what the two cases of the body are
  stated over: the branch condition in closed form, where each output is idle and where it is written back, the
  staging buffers at a point, and the region invariant as "the scratch buffer at some contents".
-/
import proofs.«400313_j5523327942720_3_alg».proof.Proof.Gen.Kernel.Frame
import proofs.«400313_j5523327942720_3_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition: the tile coordinate is zero. -/
abbrev cond0_0 (i : grid0.Coords) : Prop := k0_cond1 i = 1#1

/-- It holds exactly at the first point of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The inputs and the first output are stored or read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The softmax output is stored at a batch's first point and untouched at its other three. -/
theorem liveAt0_3 : ∀ t : Fin cfg0.N, t.val % 4 = 0 → cfg0.idle 3 (grid0.coords t) = false := by decide +kernel
theorem idleAt0_3 : ∀ t : Fin cfg0.N, t.val % 4 ≠ 0 → cfg0.idle 3 (grid0.coords t) = true := by decide +kernel
/-- Its block is written back only at the batch's last point. -/
theorem noFlush0_3 : ∀ t : Fin cfg0.N, t.val % 4 ≠ 3 → (cfg0.win 3).flush t = false :=
  (by decide +kernel : ∀ t : Fin grid0.N, t.val % 4 ≠ 3 → win0_3.flush t = false)
theorem flush0_3' : ∀ t : Fin cfg0.N, t.val % 4 = 3 → (cfg0.win 3).flush t = true :=
  (by decide +kernel : ∀ t : Fin grid0.N, t.val % 4 = 3 → win0_3.flush t = true)

/-- One staging buffer of each output window, through which its contents are stated. -/
abbrev VO0_2 : View sig .tc .vmem S1x1024x1024 .f32 := (Memref.whole cc0_stg2_0 : Memref sig .tc .vmem S1x1024x1024 .f32).view
abbrev VO0_3 : View sig .tc .vmem S1x512x512 .f32 := (Memref.whole cc0_stg3_0 : Memref sig .tc .vmem S1x512x512 .f32).view

/-- Each window's current staging buffer at point `t`, as the pipeline passes it to the body. -/
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch buffer that carries the transposed softmax matrix through a batch. -/
abbrev scM0_0 : Memref sig .tc .vmem S512x512 .bf16 := Memref.whole cc0_scratch0
abbrev VS0_0 : View sig .tc .vmem S512x512 .bf16 := scM0_0.view

/-- The region's default invariant is "the scratch buffer at some contents, the generator register at some state". -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Body

end
-- ==== Proof.BodyBits.RunA.lean ====
/-
  The body at the first point of a batch (tile 0). From the two resident input blocks it computes the batch's softmax
  matrix, stores it whole into the second output's staging buffer and its transpose whole into the scratch buffer, reads
  the scratch back, and stores tile 0 of the first input and the product of the scratch with that tile as the two
  halves of the first output's block. The run is symbolic: what each buffer ends with is a list of stored pieces,
  found when the run hands each buffer to the continuation.
-/
import proofs.«400313_j5523327942720_3_alg».proof.Proof.BodyBits.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case "tile = 0": the inputs' buffers at `x0`, `x1`, the outputs' and the scratch at anything; afterwards the inputs as
    they were and each of the three written buffers at its pieces (the first output's two halves `L2`, the softmax
    matrix `L3`, the scratch's transpose `LS0`). -/
noncomputable def kernelRun0_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) :
    Σ' (L2 : List (View.Piece (Elt F) S1x1024x1024 .f32)) (L3 : List (View.Piece (Elt F) S1x512x512 .f32)), { LS0 : List (View.Piece (Elt F) S512x512 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Body

end
-- ==== Proof.BodyBits.RunB.lean ====
/-
  The body at the other three points of a batch (tile 1, 2 or 3). It reads the scratch buffer, which still holds the
  batch's transposed softmax matrix, and stores the tile of the first input and the product of the scratch with that
  tile as the two halves of the first output's block. The second input, the second output's staging buffer and the
  scratch are left exactly as found.
-/
import proofs.«400313_j5523327942720_3_alg».proof.Proof.BodyBits.Shared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case "tile ≠ 0": the first input's buffer at `x0`, the scratch at `xs0`, the second input and the second output at
    whatever they hold (`x1`, `y3`), the first output at anything; afterwards all as they were but the first output, at
    its two pieces `L2`. -/
noncomputable def kernelRun0_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare y3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare y3 ∗ owns (c : Thread nD τ) arg6 fullShare xs0) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact hf1
      iexact H1
    isplitl [H2]; · iexists _; iexact H2
    isplitl [H3]
    · iexists _; isplitr; · ipureintro; exact hf3
      iexact H3
    iexists _; isplitr; · ipureintro; exact harg6.read_unread _
    iexact HS0

end Cert.Kernel.Body

end
-- ==== Proof.BodyBits.Outs.lean ====
/-
  What each case of the body leaves in the buffers it writes, as whole-buffer contents: the stored pieces laid over one
  another (the last store on top). At "tile = 0" these are the first output's block, the softmax matrix and the scratch's
  transposed copy of it; at the other tiles only the first output's block. Each list of pieces covers its buffer (two
  half-blocks tile the first output's block; one whole store fills each of the other two), so the buffer's contents after
  the run are exactly this overlay, whatever it held before.
-/
import proofs.«400313_j5523327942720_3_alg».proof.Proof.BodyBits.RunA
import proofs.«400313_j5523327942720_3_alg».proof.Proof.BodyBits.RunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Case "tile = 0" -/

/-- The first output's block: its two stored halves overlaid. -/
def out2_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S1x1024x1024 .f32 :=
  View.canon (kernelRun0_A c i arg2 harg2 arg3 harg3 arg4 harg4 arg5 harg5 arg6 harg6 hc0 x0 x1).1

theorem cover2_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S1x1024x1024.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x512x1024.size (by sl_kernel_rfl) y

/-- The softmax matrix, as stored into the second output's staging buffer. -/
def out3_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S1x512x512 .f32 :=
  View.canon (kernelRun0_A c i arg2 harg2 arg3 harg3 arg4 harg4 arg5 harg5 arg6 harg6 hc0 x0 x1).2.1

theorem cover3_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S1x512x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x512x512.size (by sl_kernel_rfl) y

/-- The scratch buffer: the transposed softmax matrix. -/
def sout_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S512x512 .bf16 :=
  View.canon (kernelRun0_A c i arg2 harg2 arg3 harg3 arg4 harg4 arg5 harg5 arg6 harg6 hc0 x0 x1).2.2.1

theorem scover_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S512x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x512.size (by sl_kernel_rfl) y

/-! ## Case "tile ≠ 0" -/

/-- The first output's block: its two stored halves overlaid (the lower half computed from the scratch as found). -/
def out2_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) : Vec F S1x1024x1024 .f32 :=
  View.canon (kernelRun0_B c i arg2 harg2 arg3 harg3 arg4 harg4 arg5 harg5 arg6 harg6 hc0 x0 x1 y3 xs0).1

theorem cover2_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) (y : S1x1024x1024.Idx) :
    ∃ pc ∈ (kernelRun0_B c i arg2 harg2 arg3 harg3 arg4 harg4 arg5 harg5 arg6 harg6 hc0 x0 x1 y3 xs0).1, y ∈ pc.1.set :=
  View.cover_of_tiledL (kernelRun0_B c i arg2 harg2 arg3 harg3 arg4 harg4 arg5 harg5 arg6 harg6 hc0 x0 x1 y3 xs0).1 S1x512x1024.size (by sl_kernel_rfl) y

end Cert.Kernel.Body

end
-- ==== Proof.BodyBits.Data.lean ====
/-
  The pipeline's proof data for the attention kernel, in closed form, and the body's obligation against it.

  Write s(n) for the first point of the batch that position n lies in (n rounded down to a multiple of 4). After the
  body at point t:
    · each input's staging buffer holds its block (the body only reads them);
    · the second output's staging buffer holds the softmax matrix of the batch, computed at s(t) — at s(t) because the
      body stores it there, at the batch's other three points because the body leaves that buffer untouched and the
      pipeline does not move it until the batch's last point, where it is written back;
    · the first output's staging buffer holds the block stored at t: tile t of the first input over the product of the
      batch's transposed softmax matrix with that tile;
    · the scratch buffer holds the transposed softmax matrix of the batch from s(t) on, which is the region invariant
      between the points of one batch (between batches the scratch is at anything).
  The one step that is not a single store is the second output at a batch's points 1, 2, 3: what its buffer holds
  when the body starts is, going back through the untouched points, what the body stored at s(t).
-/
import proofs.«400313_j5523327942720_3_alg».proof.Proof.BodyBits.Outs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point of a batch -/

/-- `s(n)`: position `n` rounded down to a multiple of 4 (read modulo the grid's 64 points, so that it is a point for
    every `n`). -/
def pt0 (n : ℕ) : Fin cfg0.N := ⟨(n - n % 4) % 64, lt_of_lt_of_eq (Nat.mod_lt _ (by decide)) (show (64 : ℕ) = cfg0.N from N_0.symm)⟩

theorem pt0_mod (n : ℕ) : (pt0 n).val % 4 = 0 := by
  show ((n - n % 4) % 64) % 4 = 0
  omega

theorem pt0_self (t : Fin cfg0.N) (h : t.val % 4 = 0) : pt0 t.val = t := by
  have hN : t.val < 64 := lt_of_lt_of_eq t.isLt (show cfg0.N = 64 from N_0)
  apply Fin.ext
  show (t.val - t.val % 4) % 64 = t.val
  omega

theorem pt0_pred (n : ℕ) (h : n % 4 ≠ 0) : pt0 (n - 1) = pt0 n := by
  apply Fin.ext
  show ((n - 1) - (n - 1) % 4) % 64 = (n - n % 4) % 64
  omega

/-! ## What the buffers hold -/

/-- The inputs' blocks at a point, at their literal type. -/
abbrev xb0 (c : Dev nD) (t : Fin cfg0.N) : Vec F S1x512x4096 .f32 := iblk m c 0 t
abbrev xb1 (c : Dev nD) (t : Fin cfg0.N) : Vec F S1x512x4096 .f32 := iblk m c 1 t

/-- At a batch's first point `s`: the first output's block, the softmax matrix and the scratch, from the inputs' blocks. -/
def out2A (c : Dev nD) (s : Fin cfg0.N) (h : s.val % 4 = 0) : Vec F S1x1024x1024 .f32 :=
  out2_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)
def out3A (c : Dev nD) (s : Fin cfg0.N) (h : s.val % 4 = 0) : Vec F S1x512x512 .f32 :=
  out3_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)
def soutA (c : Dev nD) (s : Fin cfg0.N) (h : s.val % 4 = 0) : Vec F S512x512 .bf16 :=
  sout_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)

theorem out3A_congr (c : Dev nD) {s s' : Fin cfg0.N} (e : s = s') (h : s.val % 4 = 0) (h' : s'.val % 4 = 0) :
    out3A m c s h = out3A m c s' h' := by subst e; rfl
theorem soutA_congr (c : Dev nD) {s s' : Fin cfg0.N} (e : s = s') (h : s.val % 4 = 0) (h' : s'.val % 4 = 0) :
    soutA m c s h = soutA m c s' h' := by subst e; rfl

/-- The softmax matrix of the batch of position `n`, and its transposed copy in the scratch. -/
def attnAt (c : Dev nD) (n : ℕ) : Vec F S1x512x512 .f32 := out3A m c (pt0 n) (pt0_mod n)
def scrAt (c : Dev nD) (n : ℕ) : Vec F S512x512 .bf16 := soutA m c (pt0 n) (pt0_mod n)

theorem attnAt_self (c : Dev nD) (t : Fin cfg0.N) (h : t.val % 4 = 0) : attnAt m c t.val = out3A m c t h :=
  out3A_congr m c (pt0_self t h) _ _
theorem scrAt_self (c : Dev nD) (t : Fin cfg0.N) (h : t.val % 4 = 0) : scrAt m c t.val = soutA m c t h :=
  soutA_congr m c (pt0_self t h) _ _
theorem attnAt_pred (c : Dev nD) (n : ℕ) (h : n % 4 ≠ 0) : attnAt m c (n - 1) = attnAt m c n :=
  out3A_congr m c (pt0_pred n h) _ _
theorem scrAt_pred (c : Dev nD) (n : ℕ) (h : n % 4 ≠ 0) : scrAt m c (n - 1) = scrAt m c n :=
  soutA_congr m c (pt0_pred n h) _ _

/-- At a batch's later point `s`: the first output's block, from the first input's block and the batch's scratch. -/
def out2B (c : Dev nD) (s : Fin cfg0.N) (h : ¬s.val % 4 = 0) : Vec F S1x1024x1024 .f32 :=
  out2_B c (grid0.coords s) (ms0_0 s) (hs0_0 s) (ms0_1 s) (hs0_1 s) (ms0_2 s) (hs0_2 s) (ms0_3 s) (hs0_3 s) scM0_0 (Memref.isWhole_whole _) (fun hc => h ((hcond0_0 s).mp hc)) (xb0 m c s) (xb1 m c s) (attnAt m c s.val) (scrAt m c s.val)

/-- The first output's block after the body at point `t`. -/
def after2 (c : Dev nD) (t : Fin cfg0.N) : Vec F S1x1024x1024 .f32 :=
  if h : t.val % 4 = 0 then out2A m c t h else out2B m c t h

theorem after2_A (c : Dev nD) (t : Fin cfg0.N) (h : t.val % 4 = 0) : after2 m c t = out2A m c t h := dif_pos h
theorem after2_B (c : Dev nD) (t : Fin cfg0.N) (h : ¬t.val % 4 = 0) : after2 m c t = out2B m c t h := dif_neg h

/-- The region invariant before position `n`: between batches the scratch at anything; inside a batch the scratch at the
    batch's transposed softmax matrix. -/
def PhiS (c : Dev nD) (n : ℕ) : sProp 𝕄 :=
  if n % 4 = 0 then Pipeline.ΦA spec0 c
  else iprop(iprop(owns (c : Thread nD τ) scM0_0 fullShare (scrAt m c (n - 1))) ∗ (∃ r, prngReg c r))

theorem PhiS_zero (c : Dev nD) (n : ℕ) (h : n % 4 = 0) : PhiS m c n = Pipeline.ΦA spec0 c := if_pos h
theorem PhiS_pos (c : Dev nD) (n : ℕ) (h : ¬n % 4 = 0) :
    PhiS m c n = iprop(iprop(owns (c : Thread nD τ) scM0_0 fullShare (scrAt m c (n - 1))) ∗ (∃ r, prngReg c r)) := if_neg h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => after2 m c t
    | ⟨3, _⟩ => attnAt m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = after2 m c t := by dsimp only [dats]
theorem after0_3 (c : Dev nD) (t : Fin cfg0.N) : (dats m 0 c).after 3 t = attnAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The softmax output's buffer at a batch's later points -/

/-- One step back: at a point that is not a batch's first, the second output's buffer holds what the point before
    left (that point did not write the block back). -/
theorem before3_step (c : Dev nD) (t : Fin cfg0.N) (h0 : ¬t.val % 4 = 0) (d) :
    (dats m 0 c).before 3 t d = (dats m 0 c).left 3 ⟨t.val - 1, Nat.lt_of_le_of_lt (Nat.sub_le _ _) t.isLt⟩ d := by
  have ht : t.val ≠ 0 := fun e => h0 (by rw [e])
  rw [Dat.before_of_pos (dats m 0 c) 3 t ht ((cfg0.win 3).fetch_out rfl t)]
  rw [noFlush0_3 ⟨t.val - 1, Nat.lt_of_le_of_lt (Nat.sub_le _ _) t.isLt⟩ (by show ¬(t.val - 1) % 4 = 3; omega), if_neg Bool.false_ne_true]

/-- What a stored point leaves there, as the next point finds it: all of what it stored. -/
theorem left3_live (c : Dev nD) (s : Fin cfg0.N) (h : s.val % 4 = 0) (d) :
    (dats m 0 c).left 3 s d = attnAt m c s.val := by
  unfold Dat.left
  rw [liveAt0_3 s h]
  show (dats m 0 c).kept 3 s d = _
  unfold Dat.kept
  rw [Pipeline.fill_of_clip_none 3 _ (fun _ => rfl) d ((dats m 0 c).after 3 s), Window.fill_cut, after0_3]

/-- What an untouched point leaves there: what it found. -/
theorem left3_idle (c : Dev nD) (s : Fin cfg0.N) (h : ¬s.val % 4 = 0) (d) :
    (dats m 0 c).left 3 s d = (dats m 0 c).before 3 s d := by
  unfold Dat.left
  rw [idleAt0_3 s h]

theorem before3_1 (c : Dev nD) (t : Fin cfg0.N) (h : t.val % 4 = 1) (d) : (dats m 0 c).before 3 t d = attnAt m c t.val := by
  rw [before3_step m c t (by omega), left3_live m c _ (by show (t.val - 1) % 4 = 0; omega)]
  exact attnAt_pred m c t.val (by omega)

theorem before3_2 (c : Dev nD) (t : Fin cfg0.N) (h : t.val % 4 = 2) (d) : (dats m 0 c).before 3 t d = attnAt m c t.val := by
  rw [before3_step m c t (by omega), left3_idle m c _ (by show ¬(t.val - 1) % 4 = 0; omega),
    before3_1 m c _ (by show (t.val - 1) % 4 = 1; omega)]
  exact attnAt_pred m c t.val (by omega)

theorem before3_3 (c : Dev nD) (t : Fin cfg0.N) (h : t.val % 4 = 3) (d) : (dats m 0 c).before 3 t d = attnAt m c t.val := by
  rw [before3_step m c t (by omega), left3_idle m c _ (by show ¬(t.val - 1) % 4 = 0; omega),
    before3_2 m c _ (by show (t.val - 1) % 4 = 2; omega)]
  exact attnAt_pred m c t.val (by omega)

/-- At every point but a batch's first, the second output's buffer holds the batch's softmax matrix. -/
theorem before3_eq (c : Dev nD) (t : Fin cfg0.N) (h0 : ¬t.val % 4 = 0) (d) : (dats m 0 c).before 3 t d = attnAt m c t.val := by
  have h : t.val % 4 = 1 ∨ t.val % 4 = 2 ∨ t.val % 4 = 3 := by omega
  rcases h with h | h | h
  · exact before3_1 m c t h d
  · exact before3_2 m c t h d
  · exact before3_3 m c t h d

end Cert.Kernel.Body

end
-- ==== Proof.BodyBits.Body.lean ====
/-
  The body's obligation at every grid point, the run of the whole program, and the frame.

  At a batch's first point the body is handed the inputs' blocks and writes all three buffers it owns; at the batch's
  other points it is handed, besides the inputs, the scratch at the batch's transposed softmax matrix and the second
  output's buffer at the softmax matrix itself, and gives both back untouched — which at the batch's last point is
  exactly what the write-back of the second output needs stated.
-/
import proofs.«400313_j5523327942720_3_alg».proof.Proof.BodyBits.Data

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · -- a batch's first point: everything is written
    rw [show (dats m 0 c).leavesExact 3 t = owns (c : Thread nD τ) (ms0_3 t) fullShare ((dats m 0 c).after 3 t) from by
      unfold Dat.leavesExact; rw [liveAt0_3 t h0], after0_3]
    rw [after2_A m c t h0, attnAt_self m c t h0]
    rw [PhiS_zero m c t.val h0, PhiA0_eq, PhiS_pos m c (t.val + 1) (by omega), Nat.add_sub_cancel, scrAt_self m c t h0]
    unfold out2A out3A soutA out2_A out3_A sout_A
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (xb0 m c t) (xb1 m c t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hg]
    · isplitl [HS0]
      · unfold owns; iexists _; isplitr
        swap; · iexact HS0
        ipureintro; exact View.read_writes_eq_canon _ _ _ (scover_A c _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_eq_canon _ _ _ (cover2_A c _ _ _ _ _ _ _ _ _ _ _ _ _ _)
    unfold owns; iexists _; isplitr
    swap; · iexact H3
    ipureintro; exact View.read_writes_eq_canon _ _ _ (cover3_A c _ _ _ _ _ _ _ _ _ _ _ _ _ _)
  · -- a later point of the batch: only the first output is written
    have hb : ∀ d, (dats m 0 c).before 3 t d = attnAt m c t.val := before3_eq m c t h0
    simp only [hb]
    rw [after2_B m c t h0]
    rw [PhiS_pos m c t.val h0, scrAt_pred m c t.val h0]
    by_cases h3 : t.val % 4 = 3
    · -- the batch's last point: the softmax matrix is written back, as stated
      rw [show (dats m 0 c).leavesExact 3 t = owns (c : Thread nD τ) (ms0_3 t) fullShare ((dats m 0 c).after 3 t) from by
        unfold Dat.leavesExact; rw [idleAt0_3 t h0, flush0_3' t h3], after0_3]
      rw [PhiS_zero m c (t.val + 1) (by omega), PhiA0_eq]
      unfold out2B out2_B
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun hc => h0 ((hcond0_0 t).mp hc)) (xb0 m c t) (xb1 m c t) (attnAt m c t.val) (scrAt m c t.val)).2 Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, HS0⟩
      isplitl [HS0 Hg]
      · isplitl [HS0]
        · iexists _; iexact HS0
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (cover2_B c _ _ _ _ _ _ _ _ _ _ _ _ _ _ _ _)
      iexact H3
    · -- a middle point: the softmax matrix stays in its buffer, not yet written back
      rw [Dat.leavesExact_idle (dats m 0 c) 3 t (idleAt0_3 t h0) (noFlush0_3 t h3)]
      simp only [hb]
      rw [PhiS_pos m c (t.val + 1) (by omega), Nat.add_sub_cancel]
      unfold out2B out2_B
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun hc => h0 ((hcond0_0 t).mp hc)) (xb0 m c t) (xb1 m c t) (attnAt m c t.val) (scrAt m c t.val)).2 Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, HS0⟩
      isplitl [HS0 Hg]
      · isplitl [HS0]
        · iexact HS0
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (cover2_B c _ _ _ _ _ _ _ _ _ _ _ _ _ _ _ _)
      iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- and the invariant after the last point gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_zero m c _ (by rw [Fin.val_last, show cfg0.N = 64 from N_0])]
  try exact Idealize.SL.BI.Entails.refl _

set_option backward.isDefEq.respectTransparency.types false in
/-- Every weakly fair execution of @main terminates; every array of the pipeline ends at what the proof data's
    write-backs give, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.Shared.lean ====
/-
  The attention kernel's grid is 16 batches by 4 column tiles, walked batch-major: point `t` is batch `t / 4`, tile `t % 4`.
  The body branches once, on "tile = 0": there it forms the batch's softmax matrix from the two resident input blocks,
  stores it into the second output's staging buffer and its transpose into the scratch buffer; at every point it
  multiplies the scratch (the transposed softmax) with the tile of the first input and stores the tile and the product
  as the upper and lower halves of the first output's block. This module fixes what the two cases of the body are
  stated over: the branch condition in closed form, where each output is idle and where it is written back, the
  staging buffers at a point, and the region invariant as "the scratch buffer at some contents".
-/
import proofs.«400313_j5523327942720_3_alg».proof.Proof.Gen.KernelIdeal.Frame
import proofs.«400313_j5523327942720_3_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition: the tile coordinate is zero. -/
abbrev cond0_0 (i : grid0.Coords) : Prop := k0_cond1 i = 1#1

/-- It holds exactly at the first point of each batch. -/
theorem hcond0_0 : ∀ t : Fin cfg0.N, cond0_0 (grid0.coords t) ↔ t.val % 4 = 0 :=
  (by decide +kernel : ∀ t : Fin grid0.N, cond0_0 (grid0.coords t) ↔ t.val % 4 = 0)

/-- The inputs and the first output are stored or read at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The softmax output is stored at a batch's first point and untouched at its other three. -/
theorem liveAt0_3 : ∀ t : Fin cfg0.N, t.val % 4 = 0 → cfg0.idle 3 (grid0.coords t) = false := by decide +kernel
theorem idleAt0_3 : ∀ t : Fin cfg0.N, t.val % 4 ≠ 0 → cfg0.idle 3 (grid0.coords t) = true := by decide +kernel
/-- Its block is written back only at the batch's last point. -/
theorem noFlush0_3 : ∀ t : Fin cfg0.N, t.val % 4 ≠ 3 → (cfg0.win 3).flush t = false :=
  (by decide +kernel : ∀ t : Fin grid0.N, t.val % 4 ≠ 3 → win0_3.flush t = false)
theorem flush0_3' : ∀ t : Fin cfg0.N, t.val % 4 = 3 → (cfg0.win 3).flush t = true :=
  (by decide +kernel : ∀ t : Fin grid0.N, t.val % 4 = 3 → win0_3.flush t = true)

/-- One staging buffer of each output window, through which its contents are stated. -/
abbrev VO0_2 : View sig .tc .vmem S1x1024x1024 .f32 := (Memref.whole cc0_stg2_0 : Memref sig .tc .vmem S1x1024x1024 .f32).view
abbrev VO0_3 : View sig .tc .vmem S1x512x512 .f32 := (Memref.whole cc0_stg3_0 : Memref sig .tc .vmem S1x512x512 .f32).view

/-- Each window's current staging buffer at point `t`, as the pipeline passes it to the body. -/
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
/-- The scratch buffer that carries the transposed softmax matrix through a batch. -/
abbrev scM0_0 : Memref sig .tc .vmem S512x512 .bf16 := Memref.whole cc0_scratch0
abbrev VS0_0 : View sig .tc .vmem S512x512 .bf16 := scM0_0.view

/-- The region's default invariant is "the scratch buffer at some contents, the generator register at some state". -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.BodyIdeal.RunA.lean ====
/-
  The body at the first point of a batch (tile 0). From the two resident input blocks it computes the batch's softmax
  matrix, stores it whole into the second output's staging buffer and its transpose whole into the scratch buffer, reads
  the scratch back, and stores tile 0 of the first input and the product of the scratch with that tile as the two
  halves of the first output's block. The run is symbolic: what each buffer ends with is a list of stored pieces,
  found when the run hands each buffer to the continuation.
-/
import proofs.«400313_j5523327942720_3_alg».proof.Proof.BodyIdeal.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case "tile = 0": the inputs' buffers at `x0`, `x1`, the outputs' and the scratch at anything; afterwards the inputs as
    they were and each of the three written buffers at its pieces (the first output's two halves `L2`, the softmax
    matrix `L3`, the scratch's transpose `LS0`). -/
noncomputable def kernelRun0_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) :
    Σ' (L2 : List (View.Piece (Elt F) S1x1024x1024 .f32)) (L3 : List (View.Piece (Elt F) S1x512x512 .f32)), { LS0 : List (View.Piece (Elt F) S512x512 .bf16) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel i arg2 harg2 arg3 harg3 arg4 harg4 arg5 harg5 arg6 harg6) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Body

end
-- ==== Proof.BodyIdeal.RunB.lean ====
/-
  The body at the other three points of a batch (tile 1, 2 or 3). It reads the scratch buffer, which still holds the
  batch's transposed softmax matrix, and stores the tile of the first input and the product of the scratch with that
  tile as the two halves of the first output's block. The second input, the second output's staging buffer and the
  scratch are left exactly as found.
-/
import proofs.«400313_j5523327942720_3_alg».proof.Proof.BodyIdeal.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case "tile ≠ 0": the first input's buffer at `x0`, the scratch at `xs0`, the second input and the second output at
    whatever they hold (`x1`, `y3`), the first output at anything; afterwards all as they were but the first output, at
    its two pieces `L2`. -/
noncomputable def kernelRun0_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) :
    { L2 : List (View.Piece (Elt F) S1x1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare y3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare y3 ∗ owns (c : Thread nD τ) arg6 fullShare xs0) -∗ K ⟨⟩))
          ⊢ wp frame (wpE (defs₀ (F := F)) Variants.none c none) E (cc0__kernel i arg2 harg2 arg3 harg3 arg4 harg4 arg5 harg5 arg6 harg6) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact hf1
      iexact H1
    isplitl [H2]; · iexists _; iexact H2
    isplitl [H3]
    · iexists _; isplitr; · ipureintro; exact hf3
      iexact H3
    iexists _; isplitr; · ipureintro; exact harg6.read_unread _
    iexact HS0

end Cert.KernelIdeal.Body

end
-- ==== Proof.BodyIdeal.Outs.lean ====
/-
  What each case of the body leaves in the buffers it writes, as whole-buffer contents: the stored pieces laid over one
  another (the last store on top). At "tile = 0" these are the first output's block, the softmax matrix and the scratch's
  transposed copy of it; at the other tiles only the first output's block. Each list of pieces covers its buffer (two
  half-blocks tile the first output's block; one whole store fills each of the other two), so the buffer's contents after
  the run are exactly this overlay, whatever it held before.
-/
import proofs.«400313_j5523327942720_3_alg».proof.Proof.BodyIdeal.RunA
import proofs.«400313_j5523327942720_3_alg».proof.Proof.BodyIdeal.RunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Case "tile = 0" -/

/-- The first output's block: its two stored halves overlaid. -/
def out2_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S1x1024x1024 .f32 :=
  View.canon (kernelRun0_A c i arg2 harg2 arg3 harg3 arg4 harg4 arg5 harg5 arg6 harg6 hc0 x0 x1).1

theorem cover2_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S1x1024x1024.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x512x1024.size (by sl_kernel_rfl) y

/-- The softmax matrix, as stored into the second output's staging buffer. -/
def out3_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S1x512x512 .f32 :=
  View.canon (kernelRun0_A c i arg2 harg2 arg3 harg3 arg4 harg4 arg5 harg5 arg6 harg6 hc0 x0 x1).2.1

theorem cover3_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S1x512x512.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x512x512.size (by sl_kernel_rfl) y

/-- The scratch buffer: the transposed softmax matrix. -/
def sout_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) : Vec F S512x512 .bf16 :=
  View.canon (kernelRun0_A c i arg2 harg2 arg3 harg3 arg4 harg4 arg5 harg5 arg6 harg6 hc0 x0 x1).2.2.1

theorem scover_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (y : S512x512.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S512x512.size (by sl_kernel_rfl) y

/-! ## Case "tile ≠ 0" -/

/-- The first output's block: its two stored halves overlaid (the lower half computed from the scratch as found). -/
def out2_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) : Vec F S1x1024x1024 .f32 :=
  View.canon (kernelRun0_B c i arg2 harg2 arg3 harg3 arg4 harg4 arg5 harg5 arg6 harg6 hc0 x0 x1 y3 xs0).1

theorem cover2_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) (y : S1x1024x1024.Idx) :
    ∃ pc ∈ (kernelRun0_B c i arg2 harg2 arg3 harg3 arg4 harg4 arg5 harg5 arg6 harg6 hc0 x0 x1 y3 xs0).1, y ∈ pc.1.set :=
  View.cover_of_tiledL (kernelRun0_B c i arg2 harg2 arg3 harg3 arg4 harg4 arg5 harg5 arg6 harg6 hc0 x0 x1 y3 xs0).1 S1x512x1024.size (by sl_kernel_rfl) y

end Cert.KernelIdeal.Body

end
-- ==== Proof.BodyIdeal.Data.lean ====
/-
  The pipeline's proof data for the attention kernel, in closed form, and the body's obligation against it.

  Write s(n) for the first point of the batch that position n lies in (n rounded down to a multiple of 4). After the
  body at point t:
    · each input's staging buffer holds its block (the body only reads them);
    · the second output's staging buffer holds the softmax matrix of the batch, computed at s(t) — at s(t) because the
      body stores it there, at the batch's other three points because the body leaves that buffer untouched and the
      pipeline does not move it until the batch's last point, where it is written back;
    · the first output's staging buffer holds the block stored at t: tile t of the first input over the product of the
      batch's transposed softmax matrix with that tile;
    · the scratch buffer holds the transposed softmax matrix of the batch from s(t) on, which is the region invariant
      between the points of one batch (between batches the scratch is at anything).
  The one step that is not a single store is the second output at a batch's points 1, 2, 3: what its buffer holds
  when the body starts is, going back through the untouched points, what the body stored at s(t).
-/
import proofs.«400313_j5523327942720_3_alg».proof.Proof.BodyIdeal.Outs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point of a batch -/

/-- `s(n)`: position `n` rounded down to a multiple of 4 (read modulo the grid's 64 points, so that it is a point for
    every `n`). -/
def pt0 (n : ℕ) : Fin cfg0.N := ⟨(n - n % 4) % 64, lt_of_lt_of_eq (Nat.mod_lt _ (by decide)) (show (64 : ℕ) = cfg0.N from N_0.symm)⟩

theorem pt0_mod (n : ℕ) : (pt0 n).val % 4 = 0 := by
  show ((n - n % 4) % 64) % 4 = 0
  omega

theorem pt0_self (t : Fin cfg0.N) (h : t.val % 4 = 0) : pt0 t.val = t := by
  have hN : t.val < 64 := lt_of_lt_of_eq t.isLt (show cfg0.N = 64 from N_0)
  apply Fin.ext
  show (t.val - t.val % 4) % 64 = t.val
  omega

theorem pt0_pred (n : ℕ) (h : n % 4 ≠ 0) : pt0 (n - 1) = pt0 n := by
  apply Fin.ext
  show ((n - 1) - (n - 1) % 4) % 64 = (n - n % 4) % 64
  omega

/-! ## What the buffers hold -/

/-- The inputs' blocks at a point, at their literal type. -/
abbrev xb0 (c : Dev nD) (t : Fin cfg0.N) : Vec F S1x512x4096 .f32 := iblk m c 0 t
abbrev xb1 (c : Dev nD) (t : Fin cfg0.N) : Vec F S1x512x4096 .f32 := iblk m c 1 t

/-- At a batch's first point `s`: the first output's block, the softmax matrix and the scratch, from the inputs' blocks. -/
def out2A (c : Dev nD) (s : Fin cfg0.N) (h : s.val % 4 = 0) : Vec F S1x1024x1024 .f32 :=
  out2_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)
def out3A (c : Dev nD) (s : Fin cfg0.N) (h : s.val % 4 = 0) : Vec F S1x512x512 .f32 :=
  out3_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)
def soutA (c : Dev nD) (s : Fin cfg0.N) (h : s.val % 4 = 0) : Vec F S512x512 .bf16 :=
  sout_A c (grid0.coords s) (ms0_0 s) (hs0_0 s) (ms0_1 s) (hs0_1 s) (ms0_2 s) (hs0_2 s) (ms0_3 s) (hs0_3 s) scM0_0 (Memref.isWhole_whole _) ((hcond0_0 s).mpr h) (xb0 m c s) (xb1 m c s)

theorem out3A_congr (c : Dev nD) {s s' : Fin cfg0.N} (e : s = s') (h : s.val % 4 = 0) (h' : s'.val % 4 = 0) :
    out3A m c s h = out3A m c s' h' := by subst e; rfl
theorem soutA_congr (c : Dev nD) {s s' : Fin cfg0.N} (e : s = s') (h : s.val % 4 = 0) (h' : s'.val % 4 = 0) :
    soutA m c s h = soutA m c s' h' := by subst e; rfl

/-- The softmax matrix of the batch of position `n`, and its transposed copy in the scratch. -/
def attnAt (c : Dev nD) (n : ℕ) : Vec F S1x512x512 .f32 := out3A m c (pt0 n) (pt0_mod n)
def scrAt (c : Dev nD) (n : ℕ) : Vec F S512x512 .bf16 := soutA m c (pt0 n) (pt0_mod n)

theorem attnAt_self (c : Dev nD) (t : Fin cfg0.N) (h : t.val % 4 = 0) : attnAt m c t.val = out3A m c t h :=
  out3A_congr m c (pt0_self t h) _ _
theorem scrAt_self (c : Dev nD) (t : Fin cfg0.N) (h : t.val % 4 = 0) : scrAt m c t.val = soutA m c t h :=
  soutA_congr m c (pt0_self t h) _ _
theorem attnAt_pred (c : Dev nD) (n : ℕ) (h : n % 4 ≠ 0) : attnAt m c (n - 1) = attnAt m c n :=
  out3A_congr m c (pt0_pred n h) _ _
theorem scrAt_pred (c : Dev nD) (n : ℕ) (h : n % 4 ≠ 0) : scrAt m c (n - 1) = scrAt m c n :=
  soutA_congr m c (pt0_pred n h) _ _

/-- At a batch's later point `s`: the first output's block, from the first input's block and the batch's scratch. -/
def out2B (c : Dev nD) (s : Fin cfg0.N) (h : ¬s.val % 4 = 0) : Vec F S1x1024x1024 .f32 :=
  out2_B c (grid0.coords s) (ms0_0 s) (hs0_0 s) (ms0_1 s) (hs0_1 s) (ms0_2 s) (hs0_2 s) (ms0_3 s) (hs0_3 s) scM0_0 (Memref.isWhole_whole _) (fun hc => h ((hcond0_0 s).mp hc)) (xb0 m c s) (xb1 m c s) (attnAt m c s.val) (scrAt m c s.val)

/-- The first output's block after the body at point `t`. -/
def after2 (c : Dev nD) (t : Fin cfg0.N) : Vec F S1x1024x1024 .f32 :=
  if h : t.val % 4 = 0 then out2A m c t h else out2B m c t h

theorem after2_A (c : Dev nD) (t : Fin cfg0.N) (h : t.val % 4 = 0) : after2 m c t = out2A m c t h := dif_pos h
theorem after2_B (c : Dev nD) (t : Fin cfg0.N) (h : ¬t.val % 4 = 0) : after2 m c t = out2B m c t h := dif_neg h

/-- The region invariant before position `n`: between batches the scratch at anything; inside a batch the scratch at the
    batch's transposed softmax matrix. -/
def PhiS (c : Dev nD) (n : ℕ) : sProp 𝕄 :=
  if n % 4 = 0 then Pipeline.ΦA spec0 c
  else iprop(iprop(owns (c : Thread nD τ) scM0_0 fullShare (scrAt m c (n - 1))) ∗ (∃ r, prngReg c r))

theorem PhiS_zero (c : Dev nD) (n : ℕ) (h : n % 4 = 0) : PhiS m c n = Pipeline.ΦA spec0 c := if_pos h
theorem PhiS_pos (c : Dev nD) (n : ℕ) (h : ¬n % 4 = 0) :
    PhiS m c n = iprop(iprop(owns (c : Thread nD τ) scM0_0 fullShare (scrAt m c (n - 1))) ∗ (∃ r, prngReg c r)) := if_neg h

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => after2 m c t
    | ⟨3, _⟩ => attnAt m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = after2 m c t := by dsimp only [dats]
theorem after0_3 (c : Dev nD) (t : Fin cfg0.N) : (dats m 0 c).after 3 t = attnAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The softmax output's buffer at a batch's later points -/

/-- One step back: at a point that is not a batch's first, the second output's buffer holds what the point before
    left (that point did not write the block back). -/
theorem before3_step (c : Dev nD) (t : Fin cfg0.N) (h0 : ¬t.val % 4 = 0) (d) :
    (dats m 0 c).before 3 t d = (dats m 0 c).left 3 ⟨t.val - 1, Nat.lt_of_le_of_lt (Nat.sub_le _ _) t.isLt⟩ d := by
  have ht : t.val ≠ 0 := fun e => h0 (by rw [e])
  rw [Dat.before_of_pos (dats m 0 c) 3 t ht ((cfg0.win 3).fetch_out rfl t)]
  rw [noFlush0_3 ⟨t.val - 1, Nat.lt_of_le_of_lt (Nat.sub_le _ _) t.isLt⟩ (by show ¬(t.val - 1) % 4 = 3; omega), if_neg Bool.false_ne_true]

/-- What a stored point leaves there, as the next point finds it: all of what it stored. -/
theorem left3_live (c : Dev nD) (s : Fin cfg0.N) (h : s.val % 4 = 0) (d) :
    (dats m 0 c).left 3 s d = attnAt m c s.val := by
  unfold Dat.left
  rw [liveAt0_3 s h]
  show (dats m 0 c).kept 3 s d = _
  unfold Dat.kept
  rw [Pipeline.fill_of_clip_none 3 _ (fun _ => rfl) d ((dats m 0 c).after 3 s), Window.fill_cut, after0_3]

/-- What an untouched point leaves there: what it found. -/
theorem left3_idle (c : Dev nD) (s : Fin cfg0.N) (h : ¬s.val % 4 = 0) (d) :
    (dats m 0 c).left 3 s d = (dats m 0 c).before 3 s d := by
  unfold Dat.left
  rw [idleAt0_3 s h]

theorem before3_1 (c : Dev nD) (t : Fin cfg0.N) (h : t.val % 4 = 1) (d) : (dats m 0 c).before 3 t d = attnAt m c t.val := by
  rw [before3_step m c t (by omega), left3_live m c _ (by show (t.val - 1) % 4 = 0; omega)]
  exact attnAt_pred m c t.val (by omega)

theorem before3_2 (c : Dev nD) (t : Fin cfg0.N) (h : t.val % 4 = 2) (d) : (dats m 0 c).before 3 t d = attnAt m c t.val := by
  rw [before3_step m c t (by omega), left3_idle m c _ (by show ¬(t.val - 1) % 4 = 0; omega),
    before3_1 m c _ (by show (t.val - 1) % 4 = 1; omega)]
  exact attnAt_pred m c t.val (by omega)

theorem before3_3 (c : Dev nD) (t : Fin cfg0.N) (h : t.val % 4 = 3) (d) : (dats m 0 c).before 3 t d = attnAt m c t.val := by
  rw [before3_step m c t (by omega), left3_idle m c _ (by show ¬(t.val - 1) % 4 = 0; omega),
    before3_2 m c _ (by show (t.val - 1) % 4 = 2; omega)]
  exact attnAt_pred m c t.val (by omega)

/-- At every point but a batch's first, the second output's buffer holds the batch's softmax matrix. -/
theorem before3_eq (c : Dev nD) (t : Fin cfg0.N) (h0 : ¬t.val % 4 = 0) (d) : (dats m 0 c).before 3 t d = attnAt m c t.val := by
  have h : t.val % 4 = 1 ∨ t.val % 4 = 2 ∨ t.val % 4 = 3 := by omega
  rcases h with h | h | h
  · exact before3_1 m c t h d
  · exact before3_2 m c t h d
  · exact before3_3 m c t h d

end Cert.KernelIdeal.Body

end
-- ==== Proof.BodyIdeal.Body.lean ====
/-
  The body's obligation at every grid point, the run of the whole program, and the frame.

  At a batch's first point the body is handed the inputs' blocks and writes all three buffers it owns; at the batch's
  other points it is handed, besides the inputs, the scratch at the batch's transposed softmax matrix and the second
  output's buffer at the softmax matrix itself, and gives both back untouched — which at the batch's last point is
  exactly what the write-back of the second output needs stated.
-/
import proofs.«400313_j5523327942720_3_alg».proof.Proof.BodyIdeal.Data

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · -- a batch's first point: everything is written
    rw [show (dats m 0 c).leavesExact 3 t = owns (c : Thread nD τ) (ms0_3 t) fullShare ((dats m 0 c).after 3 t) from by
      unfold Dat.leavesExact; rw [liveAt0_3 t h0], after0_3]
    rw [after2_A m c t h0, attnAt_self m c t h0]
    rw [PhiS_zero m c t.val h0, PhiA0_eq, PhiS_pos m c (t.val + 1) (by omega), Nat.add_sub_cancel, scrAt_self m c t h0]
    unfold out2A out3A soutA out2_A out3_A sout_A
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (xb0 m c t) (xb1 m c t)).2.2.2 Set.univ _)
    isplitl [H0]; · iexact H0
    isplitl [H1]; · iexact H1
    isplitl [H2]; · iexists _; iexact H2
    isplitl [H3]; · iexists _; iexact H3
    isplitl [HS0]; · iexact HS0
    iintro ⟨H0, H1, ⟨%e2, H2⟩, ⟨%e3, H3⟩, ⟨%es0, HS0⟩⟩
    isplitl [HS0 Hg]
    · isplitl [HS0]
      · unfold owns; iexists _; isplitr
        swap; · iexact HS0
        ipureintro; exact View.read_writes_eq_canon _ _ _ (scover_A c _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_eq_canon _ _ _ (cover2_A c _ _ _ _ _ _ _ _ _ _ _ _ _ _)
    unfold owns; iexists _; isplitr
    swap; · iexact H3
    ipureintro; exact View.read_writes_eq_canon _ _ _ (cover3_A c _ _ _ _ _ _ _ _ _ _ _ _ _ _)
  · -- a later point of the batch: only the first output is written
    have hb : ∀ d, (dats m 0 c).before 3 t d = attnAt m c t.val := before3_eq m c t h0
    simp only [hb]
    rw [after2_B m c t h0]
    rw [PhiS_pos m c t.val h0, scrAt_pred m c t.val h0]
    by_cases h3 : t.val % 4 = 3
    · -- the batch's last point: the softmax matrix is written back, as stated
      rw [show (dats m 0 c).leavesExact 3 t = owns (c : Thread nD τ) (ms0_3 t) fullShare ((dats m 0 c).after 3 t) from by
        unfold Dat.leavesExact; rw [idleAt0_3 t h0, flush0_3' t h3], after0_3]
      rw [PhiS_zero m c (t.val + 1) (by omega), PhiA0_eq]
      unfold out2B out2_B
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun hc => h0 ((hcond0_0 t).mp hc)) (xb0 m c t) (xb1 m c t) (attnAt m c t.val) (scrAt m c t.val)).2 Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, HS0⟩
      isplitl [HS0 Hg]
      · isplitl [HS0]
        · iexists _; iexact HS0
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (cover2_B c _ _ _ _ _ _ _ _ _ _ _ _ _ _ _ _)
      iexact H3
    · -- a middle point: the softmax matrix stays in its buffer, not yet written back
      rw [Dat.leavesExact_idle (dats m 0 c) 3 t (idleAt0_3 t h0) (noFlush0_3 t h3)]
      simp only [hb]
      rw [PhiS_pos m c (t.val + 1) (by omega), Nat.add_sub_cancel]
      unfold out2B out2_B
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun hc => h0 ((hcond0_0 t).mp hc)) (xb0 m c t) (xb1 m c t) (attnAt m c t.val) (scrAt m c t.val)).2 Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, HS0⟩
      isplitl [HS0 Hg]
      · isplitl [HS0]
        · iexact HS0
        iexact Hg
      isplitl [Ho]; · iexact Ho
      isplitl [H0]; · iexact H0
      isplitl [H1]; · iexact H1
      isplitl [H2]
      · unfold owns; iexists _; isplitr
        swap; · iexact H2
        ipureintro; exact View.read_writes_eq_canon _ _ _ (cover2_B c _ _ _ _ _ _ _ _ _ _ _ _ _ _ _ _)
      iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- and the invariant after the last point gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_zero m c _ (by rw [Fin.val_last, show cfg0.N = 64 from N_0])]
  try exact Idealize.SL.BI.Entails.refl _

set_option backward.isDefEq.respectTransparency.types false in
/-- Every weakly fair execution of @main terminates; every array of the pipeline ends at what the proof data's
    write-backs give, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyIdeal.Pieces.lean ====
/-
  The overlays of stored pieces that the two cases of the body leave (Outs) are named functions of what the body
  loaded: each whole-buffer store leaves its payload, and the first output's block is its two half-block stores side
  by side — rows 0..511 the loaded tile, rows 512..1023 the product of the scratch with the tile. The tile is the
  1024 columns of the resident first input starting at column 1024 · (tile coordinate).
-/
import proofs.«400313_j5523327942720_3_alg».proof.Proof.BodyIdeal.Outs
import Idealize.ShloMosaic.Lib.Pipeline.Value
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The zero offsets of a rank-3 and of a rank-2 rectangle, as constant functions. -/
private theorem off3_zero : (![0, 0, 0] : Fin 3 → Nat) = fun _ => 0 := by
  funext a; match a with | ⟨0, _⟩ => rfl | ⟨1, _⟩ => rfl | ⟨2, _⟩ => rfl
private theorem off2_zero : (![0, 0] : Fin 2 → Nat) = fun _ => 0 := by
  funext a; match a with | ⟨0, _⟩ => rfl | ⟨1, _⟩ => rfl

/-- The first output's block is 1024 rows; its upper half-block is the rectangle of rows 0..511 and its lower
    half-block the rectangle of rows 512..1023. Row `r` of a half-block sits at row `r`, resp. `r + 512`, of the block. -/
private theorem upper_emb (r : Fin 512) (n : Fin 1024) :
    (ix3 0 ⟨r.val, by have := r.isLt; omega⟩ n : S1x1024x1024.Idx)
      = (Rect.unit (s := S1x1024x1024) ![0, 0, 0] S1x512x1024.size inb_S1x1024x1024_S1x512x1024_0_0_0).emb (ix3 0 r n) := by
  funext a; apply Fin.ext
  match a with
  | ⟨0, _⟩ => show (0 : Fin 1).val = 0 + 1 * (0 : Fin 1).val; simp
  | ⟨1, _⟩ => show r.val = 0 + 1 * r.val; omega
  | ⟨2, _⟩ => show n.val = 0 + 1 * n.val; omega

private theorem lower_emb (r : Fin 512) (n : Fin 1024) :
    (ix3 0 ⟨r.val + 512, by have := r.isLt; omega⟩ n : S1x1024x1024.Idx)
      = (Rect.unit (s := S1x1024x1024) ![0, 512, 0] S1x512x1024.size inb_S1x1024x1024_S1x512x1024_0_512_0).emb (ix3 0 r n) := by
  funext a; apply Fin.ext
  match a with
  | ⟨0, _⟩ => show (0 : Fin 1).val = 0 + 1 * (0 : Fin 1).val; simp
  | ⟨1, _⟩ => show r.val + 512 = 512 + 1 * r.val; omega
  | ⟨2, _⟩ => show n.val = 0 + 1 * n.val; omega

/-- A row below 512 is not in the lower half-block. -/
private theorem upper_not_mem_lower (r : Fin 512) (n : Fin 1024) :
    (ix3 0 ⟨r.val, by have := r.isLt; omega⟩ n : S1x1024x1024.Idx)
      ∉ (Rect.unit (s := S1x1024x1024) ![0, 512, 0] S1x512x1024.size inb_S1x1024x1024_S1x512x1024_0_512_0).set := by
  rw [Rect.mem_set_unit]
  intro h
  have h1 : (512 : Nat) ≤ r.val := (h 1).1
  have := r.isLt
  omega

/-- Two half-block stores overlaid, the lower half last: at a row below 512 the overlay is the upper half's payload, -/
private theorem canon_halves_upper (w1 w0 : Vec F S1x512x1024 .f32) (r : Fin 512) (n : Fin 1024) :
    View.canon (Val := Elt F)
        [⟨Rect.unit (s := S1x1024x1024) ![0, 512, 0] S1x512x1024.size inb_S1x1024x1024_S1x512x1024_0_512_0, w1⟩,
         ⟨Rect.unit (s := S1x1024x1024) ![0, 0, 0] S1x512x1024.size inb_S1x1024x1024_S1x512x1024_0_0_0, w0⟩]
        (ix3 0 ⟨r.val, by have := r.isLt; omega⟩ n)
      = w0 (ix3 0 r n) := by
  rw [View.canon_cons_of_not_mem
        (⟨Rect.unit (s := S1x1024x1024) ![0, 512, 0] S1x512x1024.size inb_S1x1024x1024_S1x512x1024_0_512_0, w1⟩ : View.Piece (Elt F) S1x1024x1024 .f32)
        [⟨Rect.unit (s := S1x1024x1024) ![0, 0, 0] S1x512x1024.size inb_S1x1024x1024_S1x512x1024_0_0_0, w0⟩]
        (upper_not_mem_lower r n),
      upper_emb r n, View.canon_cons_emb]

/-- and at row `r + 512` the lower half's. -/
private theorem canon_halves_lower (w1 w0 : Vec F S1x512x1024 .f32) (r : Fin 512) (n : Fin 1024) :
    View.canon (Val := Elt F)
        [⟨Rect.unit (s := S1x1024x1024) ![0, 512, 0] S1x512x1024.size inb_S1x1024x1024_S1x512x1024_0_512_0, w1⟩,
         ⟨Rect.unit (s := S1x1024x1024) ![0, 0, 0] S1x512x1024.size inb_S1x1024x1024_S1x512x1024_0_0_0, w0⟩]
        (ix3 0 ⟨r.val + 512, by have := r.isLt; omega⟩ n)
      = w1 (ix3 0 r n) := by
  rw [lower_emb r n, View.canon_cons_emb]

/-- The column tile of the resident first input that the body loads at grid coordinates `i`. -/
def tile (i : grid0.Coords) (x0 : Vec F S1x512x4096 .f32) : Vec F S1x512x1024 .f32 :=
  View.ld x0 (Rect.unit (s := S1x512x4096) (k0_off1 i) S1x512x1024.size (k0_off1_inb i))

/-- The body's load of the tile through the first input's whole buffer at `x0` reads `tile i x0`. -/
private theorem readAt_tile (i : grid0.Coords) (arg2 : Memref sig .tc .vmem S1x512x4096 .f32) (harg2 : arg2.IsWhole)
    (x0 : Vec F S1x512x4096 .f32) :
    View.readAt (Elt F) arg2.view (Rect.unit (s := S1x512x4096) (k0_off1 i) S1x512x1024.size (k0_off1_inb i)).toLoadRect (harg2.unread x0)
      = tile i x0 := by
  rw [View.readAt_eq_ld, harg2.read_unread]; rfl

theorem tile_apply (i : grid0.Coords) (x0 : Vec F S1x512x4096 .f32) (r : Fin 512) (n : Fin 1024) :
    tile i x0 (ix3 0 r n) = x0 (ix3 0 r ⟨1024 * (i 1).val + n.val, by have h4 : (i 1).val < 4 := (i 1).isLt; have := n.isLt; show 1024 * (i 1).val + n.val < 4096; omega⟩) := by
  have hoff := k0_off1_eq i
  unfold tile
  refine congrArg x0 (funext fun a => Fin.ext ?_)
  show (k0_off1 i) a + 1 * ((ix3 0 r n : S1x512x1024.Idx) a).val = _
  rw [hoff]
  match a with
  | ⟨0, _⟩ => show 0 + 1 * (0 : Fin 1).val = (0 : Fin 1).val; simp
  | ⟨1, _⟩ => show 0 + 1 * r.val = r.val; omega
  | ⟨2, _⟩ => show 1024 * (i 1).val + 1 * n.val = 1024 * (i 1).val + n.val; omega

theorem out3_A_eq (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) :
    out3_A c i arg2 harg2 arg3 harg3 arg4 harg4 arg5 harg5 arg6 harg6 hc0 x0 x1 = k0_pay2 x0 x1 := by
  unfold out3_A kernelRun0_A; dsimp only; sl_unfold_run_names
  rw [View.canon_unit_zero off3_zero]
  simp only [View.readAt_eq_ld, Memref.IsWhole.read_unread, View.ld_unit_zero (S := S1x512x4096) off3_zero]

theorem sout_A_eq (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) :
    sout_A c i arg2 harg2 arg3 harg3 arg4 harg4 arg5 harg5 arg6 harg6 hc0 x0 x1 = k0_pay3 x0 x1 := by
  unfold sout_A kernelRun0_A; dsimp only; sl_unfold_run_names
  rw [View.canon_unit_zero off2_zero]
  simp only [View.readAt_eq_ld, Memref.IsWhole.read_unread, View.ld_unit_zero (S := S1x512x4096) off3_zero]

theorem out2_A_upper (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (r : Fin 512) (n : Fin 1024) :
    out2_A c i arg2 harg2 arg3 harg3 arg4 harg4 arg5 harg5 arg6 harg6 hc0 x0 x1 (ix3 0 ⟨r.val, by have := r.isLt; omega⟩ n) = k0_pay5 (tile i x0) (ix3 0 r n) := by
  unfold out2_A kernelRun0_A; dsimp only
  rw [canon_halves_upper, readAt_tile]

theorem out2_A_lower (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : cond0_0 i)
    (x0 : Vec F S1x512x4096 .f32) (x1 : Vec F S1x512x4096 .f32) (r : Fin 512) (n : Fin 1024) :
    out2_A c i arg2 harg2 arg3 harg3 arg4 harg4 arg5 harg5 arg6 harg6 hc0 x0 x1 (ix3 0 ⟨r.val + 512, by have := r.isLt; omega⟩ n) = k0_pay6 (k0_pay3 x0 x1) (tile i x0) (ix3 0 r n) := by
  unfold out2_A kernelRun0_A; dsimp only
  rw [canon_halves_lower, readAt_tile]
  sl_unfold_run_names
  rw [View.readCov_unit_zero (S := S512x512) _ off2_zero]
  simp only [View.readAt_eq_ld, Memref.IsWhole.read_unread, View.ld_unit_zero (S := S1x512x4096) off3_zero]

theorem out2_B_upper (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) (r : Fin 512) (n : Fin 1024) :
    out2_B c i arg2 harg2 arg3 harg3 arg4 harg4 arg5 harg5 arg6 harg6 hc0 x0 x1 y3 xs0 (ix3 0 ⟨r.val, by have := r.isLt; omega⟩ n) = k0_pay5 (tile i x0) (ix3 0 r n) := by
  unfold out2_B kernelRun0_B; dsimp only
  rw [canon_halves_upper, readAt_tile]

theorem out2_B_lower (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x1024x1024 .f32) (harg4 : arg4.IsWhole) (arg5 : Memref sig .tc .vmem S1x512x512 .f32) (harg5 : arg5.IsWhole) (arg6 : Memref sig .tc .vmem S512x512 .bf16) (harg6 : arg6.IsWhole) (hc0 : ¬cond0_0 i)
    (x0 : Vec F S1x512x4096 .f32) (x1 : Vec F S1x512x4096 .f32) (y3 : Vec F S1x512x512 .f32) (xs0 : Vec F S512x512 .bf16) (r : Fin 512) (n : Fin 1024) :
    out2_B c i arg2 harg2 arg3 harg3 arg4 harg4 arg5 harg5 arg6 harg6 hc0 x0 x1 y3 xs0 (ix3 0 ⟨r.val + 512, by have := r.isLt; omega⟩ n) = k0_pay6 xs0 (tile i x0) (ix3 0 r n) := by
  unfold out2_B kernelRun0_B; dsimp only
  rw [canon_halves_lower, readAt_tile]
  simp only [View.readAt_eq_ld, Memref.IsWhole.read_unread, View.ld_unit_zero (S := S512x512) off2_zero]

end Cert.KernelIdeal.Body

end
-- ==== Proof.Spec.lean ====
/-
  Channel attention, as one function of the two inputs flattened to [batch, channel, position] = [16, 512, 4096]
  (`D0`, `D1`), over the extended reals:

    energy b i j = ∑ₙ D0[b,i,n] · D1[b,j,n]
    attn   b i j = exp (energy b i j − rowMax b i) / ∑ⱼ' exp (energy b i j' − rowMax b i)      (a row softmax)
    value  b j n = ∑ᵢ attn b i j · D0[b,i,n]

  `rowMax b i` is the row's maximum folded from −∞ (the float pattern 0xFF800000) and then joined with −∞ once more,
  as both programs spell it. Nothing here mentions a program.
-/
import Idealize.ShloMosaic.PureOps.Ideal
import Idealize.ShloMosaic.Lib.ValueIdx

noncomputable section

namespace Cert.Spec

open Idealize.ShloMosaic Idealize.ShloMosaic.ValueIdx

/-- A flattened input: [16, 512, 4096] extended reals. -/
abbrev Flat := (⟨3, ![16, 512, 4096]⟩ : Shape).Idx → EReal

/-- −∞, as the float pattern both programs start their maxima from. -/
abbrev negInf : EReal := Ideal.ofBits .f32 0xFF800000#32

def energy (D0 D1 : Flat) (b : Fin 16) (i j : Fin 512) : EReal :=
  ∑ n : Fin 4096, D0 (ix3 b i n) * D1 (ix3 b j n)

def rowMax (D0 D1 : Flat) (b : Fin 16) (i : Fin 512) : EReal :=
  max negInf ((Finset.univ : Finset (Fin 512)).fold max negInf (fun j => energy D0 D1 b i j))

def expo (D0 D1 : Flat) (b : Fin 16) (i j : Fin 512) : EReal :=
  Ideal.exp (energy D0 D1 b i j - rowMax D0 D1 b i)

def attn (D0 D1 : Flat) (b : Fin 16) (i j : Fin 512) : EReal :=
  Ideal.div (expo D0 D1 b i j) (∑ j' : Fin 512, expo D0 D1 b i j')

def value (D0 D1 : Flat) (b : Fin 16) (j : Fin 512) (n : Fin 4096) : EReal :=
  ∑ i : Fin 512, attn D0 D1 b i j * D0 (ix3 b i n)

end Cert.Spec

end
-- ==== Proof.KernelValue.lean ====
/-
  The kernel body's arithmetic, read entry by entry over the extended reals, for one batch `b` whose two resident input
  blocks are rows of the flattened inputs `D0`, `D1`.

  The body splits each input as hi + lo with hi the input itself (a change of float format is the identity here) and
  lo = x − x, and forms the energy as hi·hi + hi·lo + lo·hi. For a REAL x the difference x − x is 0, a product with 0 is 0
  and a sum of zeros is 0, so the two correction products vanish and the energy is the plain ∑ₙ D0[b,i,n]·D1[b,j,n]; this
  is the one place finiteness of the inputs is used. The softmax (row maximum from −∞, subtract, exponential, row sum,
  quotient) is then the specification's, entry by entry; the scratch holds its transpose; and the second product is
  ∑ᵢ scratch[j,i]·tile[i,n].
-/
import proofs.«400313_j5523327942720_3_alg».proof.Proof.Gen.KernelIdeal.Skeleton
import proofs.«400313_j5523327942720_3_alg».proof.Proof.Spec
import Idealize.ShloMosaic.PureOps.Ideal.Laws
import Idealize.ShloMosaic.Lib.Pipeline.Value
import Idealize.ShloMosaic.Lib.ValueLayout

noncomputable section

namespace Cert.KernelValue

open Idealize.ShloMosaic Idealize.ShloMosaic.ValueIdx Cert.KernelIdeal Cert.KernelIdeal.Gen

variable (D0 D1 : Cert.Spec.Flat) (b : Fin 16)

/-! ## The two products read at an entry -/

theorem lhs_dotE_0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_dotE_1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem rhs_dotE_0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_dotE_1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- An energy product into the zero block, at entry (i, j): the sum over n of left[i,n] · right[j,n]. -/
theorem matmulE_apply (l r : FVec Ideal S512x4096 .bf16) (i j : Fin 512) :
    matmul dot_S512x4096_S512x4096_S512x512_1_1_0_0_n_n none l r (constant (F := Ideal) S512x512 .f32 0x00000000#32) (ix2 i j)
      = ∑ n : Fin 4096, l (ix2 i n) * r (ix2 j n) := by
  refine (Ideal.matmul_constant_zero_apply dot_S512x4096_S512x4096_S512x512_1_1_0_0_n_n none l r (ix2 i j)).trans ?_
  rw [← Equiv.sum_comp (ValueIdx.contrEquiv1 dot_S512x4096_S512x4096_S512x512_1_1_0_0_n_n 4096 rfl rfl).symm]
  refine Finset.sum_congr rfl fun k _ => ?_
  have hk := ValueIdx.contrEquiv1_symm_val dot_S512x4096_S512x4096_S512x512_1_1_0_0_n_n 4096 rfl rfl k
  have el : dot_S512x4096_S512x4096_S512x512_1_1_0_0_n_n.lhsIdx (ix2 i j) ((ValueIdx.contrEquiv1 dot_S512x4096_S512x4096_S512x512_1_1_0_0_n_n 4096 rfl rfl).symm k) = ix2 i k := funext fun a => Fin.ext (by
    match a with
    | ⟨0, _⟩ => exact lhs_dotE_0 _ _
    | ⟨1, _⟩ => exact (lhs_dotE_1 _ _).trans hk)
  have er : dot_S512x4096_S512x4096_S512x512_1_1_0_0_n_n.rhsIdx (ix2 i j) ((ValueIdx.contrEquiv1 dot_S512x4096_S512x4096_S512x512_1_1_0_0_n_n 4096 rfl rfl).symm k) = ix2 j k := funext fun a => Fin.ext (by
    match a with
    | ⟨0, _⟩ => exact rhs_dotE_0 _ _
    | ⟨1, _⟩ => exact (rhs_dotE_1 _ _).trans hk)
  rw [el, er]

theorem lhs_dotV_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_dotV_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_dotV_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_dotV_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The second product into the zero block, at entry (j, n): the sum over i of left[j,i] · right[i,n]. -/
theorem matmulV_apply (l : FVec Ideal S512x512 .bf16) (r : FVec Ideal S512x1024 .bf16) (j : Fin 512) (n : Fin 1024) :
    matmul dot_S512x512_S512x1024_S512x1024_1_0_0_1_n_n none l r (constant (F := Ideal) S512x1024 .f32 0x00000000#32) (ix2 j n)
      = ∑ i : Fin 512, l (ix2 j i) * r (ix2 i n) := by
  refine (Ideal.matmul_constant_zero_apply dot_S512x512_S512x1024_S512x1024_1_0_0_1_n_n none l r (ix2 j n)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 j n) ((ValueIdx.contrEquiv1 dot_S512x512_S512x1024_S512x1024_1_0_0_1_n_n 512 rfl rfl).symm k) = ix2 j k := funext fun a => Fin.ext (by
    match a with
    | ⟨0, _⟩ => exact lhs_dotV_0 _ _
    | ⟨1, _⟩ => exact (lhs_dotV_1 _ _).trans hk)
  have er : dot_S512x512_S512x1024_S512x1024_1_0_0_1_n_n.rhsIdx (ix2 j n) ((ValueIdx.contrEquiv1 dot_S512x512_S512x1024_S512x1024_1_0_0_1_n_n 512 rfl rfl).symm k) = ix2 k n := funext fun a => Fin.ext (by
    match a with
    | ⟨0, _⟩ => exact (rhs_dotV_0 _ _).trans hk
    | ⟨1, _⟩ => exact rhs_dotV_1 _ _)
  rw [el, er]

/-! ## A column kept by a row reduction, spread back over the rows' entries -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of row values, kept as a column and spread over each row: entry (p, q) is the value of row p. -/
def colBlock (v : FVec Ideal S512 .f32) : FVec Ideal S512x512 .f32 :=
  broadcastTo S512x512 (shapeCast S512x1 v shapeCasts_S512_S512x1) broadcasts_S512x1_S512x512

theorem colBlock_apply (v : FVec Ideal S512 .f32) (p q : Fin 512) : colBlock v (ix2 p q) = v (ix1 p) :=
  (broadcastTo_a1_ab_apply _ broadcasts_S512x1_S512x512 p q).trans (shapeCast_a_a1_apply v shapeCasts_S512_S512x1 p 0)

/-- The source index of a row reduction: row `i` with the coordinate `k` inserted. -/
theorem lift_ix (i k : Fin 512) : reduces_S512x512_S512.lift (ix1 i) k = ix2 i k :=
  funext fun a => Fin.ext (by match a with | ⟨0, _⟩ => rfl | ⟨1, _⟩ => rfl)

/-! ## The softmax of a block, entry by entry -/

/-- A row's maximum of a block: folded from −∞ and joined with −∞ once more. -/
def rowMaxOf (E : FVec Ideal S512x512 .f32) (i : Fin 512) : EReal :=
  max Cert.Spec.negInf ((Finset.univ : Finset (Fin 512)).fold max Cert.Spec.negInf (fun j => E (ix2 i j)))

/-- The vector of row maxima as the body forms it. -/
def rowMaxVec (E : FVec Ideal S512x512 .f32) : FVec Ideal S512 .f32 :=
  maximumf (broadcast S512 (Scalar.ofBits (F := Ideal) .f32 0xFF800000#32))
    (multiReduction (F := Ideal) .maximumf [1] S512 E 0xFF800000#32 reduces_S512x512_S512 (.inl rfl) rfl)

theorem rowMaxVec_apply (E : FVec Ideal S512x512 .f32) (i : Fin 512) : rowMaxVec E (ix1 i) = rowMaxOf E i := by
  unfold rowMaxVec rowMaxOf
  refine congrArg (max Cert.Spec.negInf) ?_
  refine (Ideal.multiReduction_maximumf_single E _ reduces_S512x512_S512 _ _ (ix1 i)).trans ?_
  exact Finset.fold_congr (fun k _ => congrArg E (lift_ix i k))

/-- The exponentials of a block's entries less their rows' maxima. -/
def expBlock (E : FVec Ideal S512x512 .f32) : FVec Ideal S512x512 .f32 :=
  exp (subf E (colBlock (rowMaxVec E)))

theorem expBlock_apply (E : FVec Ideal S512x512 .f32) (i j : Fin 512) :
    expBlock E (ix2 i j) = Ideal.exp (E (ix2 i j) - rowMaxOf E i) := by
  show Ideal.exp (E (ix2 i j) - colBlock (rowMaxVec E) (ix2 i j)) = _
  rw [colBlock_apply, rowMaxVec_apply]

/-- The vector of row sums of a block as the body forms it. -/
def rowSumVec (X : FVec Ideal S512x512 .f32) : FVec Ideal S512 .f32 :=
  multiReduction (F := Ideal) .add [1] S512 X 0x00000000#32 reduces_S512x512_S512 (.inl rfl) rfl

theorem rowSumVec_apply (X : FVec Ideal S512x512 .f32) (i : Fin 512) : rowSumVec X (ix1 i) = ∑ j : Fin 512, X (ix2 i j) := by
  unfold rowSumVec
  refine (Ideal.multiReduction_add_single X _ reduces_S512x512_S512 _ _ (ix1 i)).trans ?_
  exact Finset.sum_congr rfl fun k _ => congrArg X (lift_ix i k)

/-- The softmax of a block's rows as the body forms it. -/
def softmaxBlock (E : FVec Ideal S512x512 .f32) : FVec Ideal S512x512 .f32 :=
  divf (expBlock E) (colBlock (rowSumVec (expBlock E)))

theorem softmaxBlock_apply (E : FVec Ideal S512x512 .f32) (i j : Fin 512) :
    softmaxBlock E (ix2 i j)
      = Ideal.div (Ideal.exp (E (ix2 i j) - rowMaxOf E i)) (∑ j' : Fin 512, Ideal.exp (E (ix2 i j') - rowMaxOf E i)) := by
  show Ideal.div (expBlock E (ix2 i j)) (colBlock (rowSumVec (expBlock E)) (ix2 i j)) = _
  rw [colBlock_apply, rowSumVec_apply, expBlock_apply]
  exact congrArg (Ideal.div _) (Finset.sum_congr rfl fun q _ => expBlock_apply E i q)

/-! ## The energy block: the plain product, the two corrections being zero on real inputs -/

/-- A resident input block viewed as a matrix (the change of float format is the identity). -/
def hi (x : Vec Ideal S1x512x4096 .f32) : FVec Ideal S512x4096 .bf16 :=
  truncf .bf16 (shapeCast S512x4096 x shapeCasts_S1x512x4096_S512x4096) bitsLt_bf16_f32

/-- The body's correction term of an input block: the block less itself. -/
def lo (x : Vec Ideal S1x512x4096 .f32) : FVec Ideal S512x4096 .bf16 :=
  truncf .bf16 (subf (shapeCast S512x4096 x shapeCasts_S1x512x4096_S512x4096) (shapeCast S512x4096 x shapeCasts_S1x512x4096_S512x4096)) bitsLt_bf16_f32

/-- A product of two row blocks into the zero block. -/
def mm (l r : FVec Ideal S512x4096 .bf16) : FVec Ideal S512x512 .f32 :=
  matmul dot_S512x4096_S512x4096_S512x512_1_1_0_0_n_n none l r (constant (F := Ideal) S512x512 .f32 0x00000000#32)

theorem mm_apply (l r : FVec Ideal S512x4096 .bf16) (i j : Fin 512) :
    mm l r (ix2 i j) = ∑ n : Fin 4096, l (ix2 i n) * r (ix2 j n) := matmulE_apply l r i j

/-- The energy block as the body forms it: hi·hi + hi·lo + lo·hi. -/
def energyBlock (x0 x1 : Vec Ideal S1x512x4096 .f32) : FVec Ideal S512x512 .f32 :=
  addf (addf (mm (hi x0) (hi x1)) (mm (hi x0) (lo x1))) (mm (lo x0) (hi x1))

theorem hi_apply (D : Cert.Spec.Flat) (b : Fin 16) (x : Vec Ideal S1x512x4096 .f32)
    (hx : ∀ (i : Fin 512) (n : Fin 4096), x (ix3 0 i n) = D (ix3 b i n)) (i : Fin 512) (n : Fin 4096) :
    hi x (ix2 i n) = D (ix3 b i n) :=
  (shapeCast_1ab_ab_apply x shapeCasts_S1x512x4096_S512x4096 i n).trans (hx i n)

/-- For a real entry r, r − r = 0: the correction term vanishes. -/
theorem lo_apply (D : Cert.Spec.Flat) (b : Fin 16) (x : Vec Ideal S1x512x4096 .f32)
    (hx : ∀ (i : Fin 512) (n : Fin 4096), x (ix3 0 i n) = D (ix3 b i n))
    (hf : ∀ y, ∃ r : ℝ, D y = (r : EReal)) (i : Fin 512) (n : Fin 4096) :
    lo x (ix2 i n) = 0 := by
  obtain ⟨r, hr⟩ := hf (ix3 b i n)
  have h : shapeCast S512x4096 x shapeCasts_S1x512x4096_S512x4096 (ix2 i n) = (r : EReal) :=
    ((shapeCast_1ab_ab_apply x shapeCasts_S1x512x4096_S512x4096 i n).trans (hx i n)).trans hr
  show shapeCast S512x4096 x shapeCasts_S1x512x4096_S512x4096 (ix2 i n)
    - shapeCast S512x4096 x shapeCasts_S1x512x4096_S512x4096 (ix2 i n) = 0
  rw [h, ← EReal.coe_sub, sub_self, EReal.coe_zero]

/-- The energy block at entry (i, j) is the specification's energy. -/
theorem energyBlock_apply (x0 x1 : Vec Ideal S1x512x4096 .f32)
    (hx0 : ∀ (i : Fin 512) (n : Fin 4096), x0 (ix3 0 i n) = D0 (ix3 b i n))
    (hx1 : ∀ (i : Fin 512) (n : Fin 4096), x1 (ix3 0 i n) = D1 (ix3 b i n))
    (hf0 : ∀ y, ∃ r : ℝ, D0 y = (r : EReal)) (hf1 : ∀ y, ∃ r : ℝ, D1 y = (r : EReal)) (i j : Fin 512) :
    energyBlock x0 x1 (ix2 i j) = Cert.Spec.energy D0 D1 b i j := by
  unfold energyBlock
  rw [addf_apply, addf_apply, mm_apply, mm_apply, mm_apply]
  have s2 : ∑ n : Fin 4096, hi x0 (ix2 i n) * lo x1 (ix2 j n) = 0 :=
    Finset.sum_eq_zero fun n _ => by rw [lo_apply D1 b x1 hx1 hf1, mul_zero]
  have s3 : ∑ n : Fin 4096, lo x0 (ix2 i n) * hi x1 (ix2 j n) = 0 :=
    Finset.sum_eq_zero fun n _ => by rw [lo_apply D0 b x0 hx0 hf0, zero_mul]
  rw [s2, s3, add_zero, add_zero]
  unfold Cert.Spec.energy
  exact Finset.sum_congr rfl fun n _ => by rw [hi_apply D0 b x0 hx0, hi_apply D1 b x1 hx1]

/-! ## The body's softmax matrix is the specification's -/

/-- The body's quotient block is the softmax of its energy block. -/
theorem pay1_eq (x0 x1 : Vec Ideal S1x512x4096 .f32) :
    k0_pay1 (F := Ideal) x0 x1 = softmaxBlock (energyBlock x0 x1) := rfl

/-- The body's quotient block at entry (i, j) is the specification's softmax entry. -/
theorem pay1_apply (x0 x1 : Vec Ideal S1x512x4096 .f32)
    (hx0 : ∀ (i : Fin 512) (n : Fin 4096), x0 (ix3 0 i n) = D0 (ix3 b i n))
    (hx1 : ∀ (i : Fin 512) (n : Fin 4096), x1 (ix3 0 i n) = D1 (ix3 b i n))
    (hf0 : ∀ y, ∃ r : ℝ, D0 y = (r : EReal)) (hf1 : ∀ y, ∃ r : ℝ, D1 y = (r : EReal)) (i j : Fin 512) :
    k0_pay1 (F := Ideal) x0 x1 (ix2 i j) = Cert.Spec.attn D0 D1 b i j := by
  have hE : ∀ p q : Fin 512, energyBlock x0 x1 (ix2 p q) = Cert.Spec.energy D0 D1 b p q :=
    energyBlock_apply D0 D1 b x0 x1 hx0 hx1 hf0 hf1
  have hm : rowMaxOf (energyBlock x0 x1) i = Cert.Spec.rowMax D0 D1 b i := by
    unfold rowMaxOf Cert.Spec.rowMax
    exact congrArg (max Cert.Spec.negInf) (Finset.fold_congr fun q _ => hE i q)
  rw [pay1_eq, softmaxBlock_apply, hm]
  unfold Cert.Spec.attn Cert.Spec.expo
  rw [hE i j]
  exact congrArg (Ideal.div _) (Finset.sum_congr rfl fun q _ => by rw [hE i q])

/-- The softmax matrix the body stores at a batch's first point, at entry (i, j). -/
theorem pay2_apply (x0 x1 : Vec Ideal S1x512x4096 .f32)
    (hx0 : ∀ (i : Fin 512) (n : Fin 4096), x0 (ix3 0 i n) = D0 (ix3 b i n))
    (hx1 : ∀ (i : Fin 512) (n : Fin 4096), x1 (ix3 0 i n) = D1 (ix3 b i n))
    (hf0 : ∀ y, ∃ r : ℝ, D0 y = (r : EReal)) (hf1 : ∀ y, ∃ r : ℝ, D1 y = (r : EReal)) (i j : Fin 512) :
    k0_pay2 (F := Ideal) x0 x1 (ix3 0 i j) = Cert.Spec.attn D0 D1 b i j := by
  unfold k0_pay2
  exact (shapeCast_ab_1ab_apply _ shapeCasts_S512x512_S1x512x512 0 i j).trans
    (pay1_apply D0 D1 b x0 x1 hx0 hx1 hf0 hf1 i j)

/-- The scratch holds the transpose: entry (j, i) is the softmax matrix's entry (i, j). -/
theorem pay3_apply (x0 x1 : Vec Ideal S1x512x4096 .f32)
    (hx0 : ∀ (i : Fin 512) (n : Fin 4096), x0 (ix3 0 i n) = D0 (ix3 b i n))
    (hx1 : ∀ (i : Fin 512) (n : Fin 4096), x1 (ix3 0 i n) = D1 (ix3 b i n))
    (hf0 : ∀ y, ∃ r : ℝ, D0 y = (r : EReal)) (hf1 : ∀ y, ∃ r : ℝ, D1 y = (r : EReal)) (j i : Fin 512) :
    k0_pay3 (F := Ideal) x0 x1 (ix2 j i) = Cert.Spec.attn D0 D1 b i j := by
  unfold k0_pay3
  rw [shapeCast_self]
  show transpose S512x512 [1, 0] (k0_pay1 (F := Ideal) x0 x1) transposes_S512x512_p1_0_S512x512 (ix2 j i) = _
  exact (transpose_ix2_apply _ transposes_S512x512_p1_0_S512x512 j i).trans
    (pay1_apply D0 D1 b x0 x1 hx0 hx1 hf0 hf1 i j)

/-- The upper half of the first output's block is the loaded tile itself. -/
theorem pay5_apply (v7 : Vec Ideal S1x512x1024 .f32) (i : Fin 512) (n : Fin 1024) :
    k0_pay5 (F := Ideal) v7 (ix3 0 i n) = v7 (ix3 0 i n) := by
  unfold k0_pay5 k0_pay4
  exact (shapeCast_ab_1ab_apply _ shapeCasts_S512x1024_S1x512x1024 0 i n).trans
    (shapeCast_1ab_ab_apply v7 shapeCasts_S1x512x1024_S512x1024 i n)

/-- The lower half is the scratch times the tile. -/
theorem pay6_apply (v3 : Vec Ideal S512x512 .bf16) (v7 : Vec Ideal S1x512x1024 .f32) (j : Fin 512) (n : Fin 1024) :
    k0_pay6 (F := Ideal) v3 v7 (ix3 0 j n) = ∑ i : Fin 512, v3 (ix2 j i) * v7 (ix3 0 i n) := by
  unfold k0_pay6 k0_pay4
  refine (shapeCast_ab_1ab_apply _ shapeCasts_S512x1024_S1x512x1024 0 j n).trans ?_
  refine (matmulV_apply v3 _ j n).trans ?_
  refine Finset.sum_congr rfl fun i _ => ?_
  exact congrArg (v3 (ix2 j i) * ·) (shapeCast_1ab_ab_apply v7 shapeCasts_S1x512x1024_S512x1024 i n)

end Cert.KernelValue

end
-- ==== Proof.Finite.lean ====
/-
  Every entry of a finite input is a real number. The precondition says, of each input array, that the conjunction over
  all its entries of "|x| < +∞" is true; a conjunction is true exactly when every conjunct is, and an extended real whose
  absolute value lies below +∞ is neither infinity, hence the image of a real.
-/
import proofs.«400313_j5523327942720_3_alg».proof.Pre_finite_inputs
import proofs.«400313_j5523327942720_3_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The rank-0 shape has exactly one index: the empty tuple of coordinates. -/
instance : Subsingleton Cert.Pre_finite_inputs.S_.Idx := ⟨fun a b => funext fun d => d.elim0⟩

/-- The pattern 0x7F800000 (sign 0, exponent all ones, mantissa 0) denotes +∞. -/
theorem top_bits : Ideal.ofBits .f32 0x7F800000#32 = (⊤ : EReal) := by
  simp [Ideal.ofBits, Ideal.ieee]

/-- If |x| < +∞ holds (the comparison's word is 1) then x is a real: for x = ±∞ the absolute value max x (-x) is +∞,
    which is not below +∞. -/
theorem real_of_abs_lt (x : Ideal .f32)
    (h : FloatOps.cmpf (F := Ideal) .olt (FloatOps.hostAbsf x) (Ideal.ofBits .f32 0x7F800000#32) = 1#1) :
    ∃ r : ℝ, x = (r : EReal) := by
  rw [top_bits] at h
  induction x using EReal.rec with
  | bot => exact absurd h (by decide)
  | coe r => exact ⟨r, rfl⟩
  | top => exact absurd h (by decide)

/-- Both inputs are real-valued at every index, once the precondition's word is 1. -/
theorem real_of_pre [Cert.Pre_finite_inputs.Facts]
    (a0 a1 : FVec Ideal Cert.Pre_finite_inputs.S16x512x64x64 .f32)
    (h : Cert.Pre_finite_inputs.fn (F := Ideal) a0 a1 = fun _ => 1#1) :
    (∀ y, ∃ r : ℝ, a0 y = (r : EReal)) ∧ (∀ y, ∃ r : ℝ, a1 y = (r : EReal)) := by
  -- the word at the single index of the rank-0 result
  have h0 := congrFun h ValueIdx.ix0
  dsimp only [Cert.Pre_finite_inputs.fn] at h0
  -- a conjunction of two words is 1 exactly when both are
  obtain ⟨e0, e1⟩ := IntOp.andi_eq_one.1 h0
  -- a conjunction over all entries that is 1 has a 1 at every entry; there the entry's absolute value is below +∞
  refine ⟨fun y => real_of_abs_lt (a0 y) ?_, fun y => real_of_abs_lt (a1 y) ?_⟩
  · exact Host.reduce_andi_all _ _ _ _ _ e0 y
  · exact Host.reduce_andi_all _ _ _ _ _ e1 y

end Cert.Finite

end
-- ==== Proof.KernelFinal.lean ====
/-
  The kernel's two result arrays after the run, as the specification's functions of the flattened inputs.

  Grid point t is batch t / 4, tile t % 4. The inputs' blocks at t are the batch's rows of the flattened inputs; the second
  output's block is the batch's [512, 512] slab, written back at the batch's last point with the softmax matrix computed
  at its first; the first output's block at t is the [1024, 1024] slab of rows 0..1023 and columns 1024·(t % 4)…, its
  upper half the first input's tile and its lower half ∑ᵢ attn[b,i,j] · D0[b,i,n]. The blocks written back tile each
  array, so each array ends as one function of the inputs.
-/
import proofs.«400313_j5523327942720_3_alg».proof.Proof.BodyIdeal.Body
import proofs.«400313_j5523327942720_3_alg».proof.Proof.BodyIdeal.Pieces
import proofs.«400313_j5523327942720_3_alg».proof.Proof.KernelValue
import proofs.«400313_j5523327942720_3_alg».proof.Proof.Finite
import proofs.«400313_j5523327942720_3_alg».proof.Proof.Spec
import Idealize.ShloMosaic.Lib.StableHlo.Run

set_option maxRecDepth 16384

noncomputable section

namespace Cert.KernelIdeal.Final

open Idealize.ShloMosaic Idealize.ShloMosaic.TcCoe Idealize.SL.Sem Idealize.ShloMosaic.StableHlo
open Idealize.ShloMosaic.ValueIdx
open Idealize.ShloMosaic.Pipeline (Dat Cfg Window)
open Cert.KernelIdeal Cert.KernelIdeal.Gen Cert.KernelIdeal.Body

variable (m : (ℓ : Loc nD τ sig) → Buf (Elt Ideal) ℓ) (ρ : Dev nD → PrngReg)

/-! ## The flattened inputs -/

/-- The two inputs as the region finds them: flattened to [16, 512, 4096] by the host lines before it. -/
abbrev D0 (c : Dev nD) : Cert.Spec.Flat := V m c main_v0
abbrev D1 (c : Dev nD) : Cert.Spec.Flat := V m c main_v1

theorem D0_eq (c : Dev nD) :
    D0 m c = shapeCast S16x512x4096 (m ((c : Thread nD τ).loc main_arg0)) shapeCasts_S16x512x64x64_S16x512x4096 := by
  show StableHlo.after hostOps0 (fun b => m (c, b)) (Proc.devRef .tc main_v0) = _
  after_results; rfl

theorem D1_eq (c : Dev nD) :
    D1 m c = shapeCast S16x512x4096 (m ((c : Thread nD τ).loc main_arg1)) shapeCasts_S16x512x64x64_S16x512x4096 := by
  show StableHlo.after hostOps0 (fun b => m (c, b)) (Proc.devRef .tc main_v1) = _
  after_results; rfl

/-- Under the precondition every entry of the flattened inputs is a real number (a flattening only moves entries). -/
theorem D_real (c : Dev nD)
    (hpre : Cert.Pre_finite_inputs.fn (F := Ideal) (m ((c : Thread nD τ).loc main_arg0)) (m ((c : Thread nD τ).loc main_arg1)) = fun _ => 1#1) :
    (∀ y, ∃ r : ℝ, D0 m c y = (r : EReal)) ∧ (∀ y, ∃ r : ℝ, D1 m c y = (r : EReal)) := by
  have h := Cert.Finite.real_of_pre _ _ hpre
  constructor
  · intro y; rw [D0_eq]; unfold shapeCast; exact h.1 _
  · intro y; rw [D1_eq]; unfold shapeCast; exact h.2 _

/-! ## The schedule, decided over the grid -/

theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

theorem tile_coord : ∀ t : Fin cfg0.N, ((grid0.coords t) 1).val = t.val % 4 :=
  (by decide +kernel : ∀ t : Fin grid0.N, ((grid0.coords t) 1).val = t.val % 4)

/-- The batch of a point. -/
def batch (t : Fin cfg0.N) : Fin 16 := ⟨t.val / 4, by have hN : t.val < 64 := lt_of_lt_of_eq t.isLt (show cfg0.N = 64 from N_0); omega⟩

/-- The column of the flattened arrays under column `n` of tile `t % 4`. -/
def col (t : Fin cfg0.N) (n : Fin 1024) : Fin 4096 := ⟨(t.val % 4) * 1024 + n.val, by have := n.isLt; omega⟩

/-! ## The inputs' blocks are the batch's rows -/

theorem xb0_apply (c : Dev nD) (s : Fin cfg0.N) (i : Fin 512) (n : Fin 4096) :
    xb0 m c s (ix3 0 i n) = D0 m c (ix3 (batch s) i n) := by
  obtain ⟨e0, e1, e2, -⟩ := idx_facts s
  show V m c main_v0 (((cfg0.win 0).blk s).view.emb (ix3 0 i n)) = V m c main_v0 (ix3 (batch s) i n)
  refine congrArg (V m c main_v0) ?_
  funext a; apply Fin.ext
  match a with
  | ⟨0, _⟩ => show win0_0.index s (0 : Fin 3) * 1 + 1 * 0 = s.val / 4; omega
  | ⟨1, _⟩ => show win0_0.index s (1 : Fin 3) * 512 + 1 * i.val = i.val; omega
  | ⟨2, _⟩ => show win0_0.index s (2 : Fin 3) * 4096 + 1 * n.val = n.val; omega

theorem xb1_apply (c : Dev nD) (s : Fin cfg0.N) (i : Fin 512) (n : Fin 4096) :
    xb1 m c s (ix3 0 i n) = D1 m c (ix3 (batch s) i n) := by
  obtain ⟨-, -, -, e0, e1, e2, -⟩ := idx_facts s
  show V m c main_v1 (((cfg0.win 1).blk s).view.emb (ix3 0 i n)) = V m c main_v1 (ix3 (batch s) i n)
  refine congrArg (V m c main_v1) ?_
  funext a; apply Fin.ext
  match a with
  | ⟨0, _⟩ => show win0_1.index s (0 : Fin 3) * 1 + 1 * 0 = s.val / 4; omega
  | ⟨1, _⟩ => show win0_1.index s (1 : Fin 3) * 512 + 1 * i.val = i.val; omega
  | ⟨2, _⟩ => show win0_1.index s (2 : Fin 3) * 4096 + 1 * n.val = n.val; omega

theorem batch_pt0 (t : Fin cfg0.N) : batch (pt0 t.val) = batch t := by
  have hN : t.val < 64 := lt_of_lt_of_eq t.isLt (show cfg0.N = 64 from N_0)
  apply Fin.ext
  show ((t.val - t.val % 4) % 64) / 4 = t.val / 4
  omega

section Values

variable (c : Dev nD) (hf0 : ∀ y, ∃ r : ℝ, D0 m c y = (r : EReal)) (hf1 : ∀ y, ∃ r : ℝ, D1 m c y = (r : EReal))
include hf0 hf1

/-! ## What the staging buffers hold, entry by entry -/

/-- The softmax matrix of the batch of position `t`. -/
theorem attnAt_apply (t : Fin cfg0.N) (i j : Fin 512) :
    attnAt m c t.val (ix3 0 i j) = Cert.Spec.attn (D0 m c) (D1 m c) (batch t) i j := by
  unfold attnAt out3A
  rw [out3_A_eq, ← batch_pt0 t]
  exact Cert.KernelValue.pay2_apply (D0 m c) (D1 m c) (batch (pt0 t.val)) _ _ (xb0_apply m c _) (xb1_apply m c _) hf0 hf1 i j

/-- Its transposed copy in the scratch. -/
theorem scrAt_apply (t : Fin cfg0.N) (j i : Fin 512) :
    scrAt m c t.val (ix2 j i) = Cert.Spec.attn (D0 m c) (D1 m c) (batch t) i j := by
  unfold scrAt soutA
  rw [sout_A_eq, ← batch_pt0 t]
  exact Cert.KernelValue.pay3_apply (D0 m c) (D1 m c) (batch (pt0 t.val)) _ _ (xb0_apply m c _) (xb1_apply m c _) hf0 hf1 j i

/-- The loaded tile of the first input, at the flattened array's entry. -/
theorem tile_at (t : Fin cfg0.N) (i : Fin 512) (n : Fin 1024) :
    tile (grid0.coords t) (xb0 m c t) (ix3 0 i n) = D0 m c (ix3 (batch t) i (col t n)) := by
  rw [tile_apply, xb0_apply]
  refine congrArg (D0 m c) ?_
  refine congrArg (ix3 (batch t) i) (Fin.ext ?_)
  show 1024 * ((grid0.coords t) 1).val + n.val = (t.val % 4) * 1024 + n.val
  rw [tile_coord t]; omega

/-- The upper half of the first output's block: the first input's tile. -/
theorem after2_upper (t : Fin cfg0.N) (r : Fin 512) (n : Fin 1024) :
    after2 m c t (ix3 0 ⟨r.val, by have := r.isLt; omega⟩ n) = D0 m c (ix3 (batch t) r (col t n)) := by
  by_cases h0 : t.val % 4 = 0
  · rw [after2_A m c t h0]; unfold out2A
    rw [out2_A_upper, Cert.KernelValue.pay5_apply]
    exact tile_at m c hf0 hf1 t r n
  · rw [after2_B m c t h0]; unfold out2B
    rw [out2_B_upper, Cert.KernelValue.pay5_apply]
    exact tile_at m c hf0 hf1 t r n

/-- The lower half: the attention-weighted sums. -/
theorem after2_lower (t : Fin cfg0.N) (r : Fin 512) (n : Fin 1024) :
    after2 m c t (ix3 0 ⟨r.val + 512, by have := r.isLt; omega⟩ n) = Cert.Spec.value (D0 m c) (D1 m c) (batch t) r (col t n) := by
  unfold Cert.Spec.value
  by_cases h0 : t.val % 4 = 0
  · rw [after2_A m c t h0]; unfold out2A
    rw [out2_A_lower, Cert.KernelValue.pay6_apply]
    refine Finset.sum_congr rfl fun i _ => ?_
    rw [tile_at m c hf0 hf1 t i n, ← sout_A_eq c (grid0.coords t) (ms0_0 t) (hs0_0 t) (ms0_1 t) (hs0_1 t) (ms0_2 t) (hs0_2 t) (ms0_3 t) (hs0_3 t) scM0_0 (Memref.isWhole_whole _) ((hcond0_0 t).mpr h0)]
    have e := scrAt_apply m c hf0 hf1 t r i
    rw [scrAt_self m c t h0] at e
    unfold soutA at e
    rw [e]
  · rw [after2_B m c t h0]; unfold out2B
    rw [out2_B_lower, Cert.KernelValue.pay6_apply]
    refine Finset.sum_congr rfl fun i _ => ?_
    rw [tile_at m c hf0 hf1 t i n, scrAt_apply m c hf0 hf1 t r i]

end Values

/-! ## The two arrays after the run -/

/-- The second result: the row softmax. -/
def G3 (c : Dev nD) : S16x512x512.Idx → EReal := fun y => Cert.Spec.attn (D0 m c) (D1 m c) (y 0) (y 1) (y 2)

/-- The first result, flattened: the first input's 512 channels, then the 512 attention-weighted ones. -/
def G2 (c : Dev nD) : S16x1024x4096.Idx → EReal := fun y =>
  if h : (y 1).val < 512 then D0 m c (ix3 (y 0) ⟨(y 1).val, h⟩ (y 2))
  else Cert.Spec.value (D0 m c) (D1 m c) (y 0) ⟨(y 1).val - 512, by have h1 : (y 1).val < 1024 := (y 1).isLt; omega⟩ (y 2)

theorem mem_blk3 (t : Fin cfg0.N) (i : S16x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v2_1).slice (win0_3.rect t)).set ↔ _
  rw [View.set_slice_whole, Rect.mem_set_unit]
  exact Iff.rfl

theorem mem_blk2 (t : Fin cfg0.N) (i : S16x1024x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v2_0).slice (win0_2.rect t)).set ↔ _
  rw [View.set_slice_whole, Rect.mem_set_unit]
  exact Iff.rfl

/-- Every entry of the second result lies in the block its batch's last point writes back. -/
theorem cover3 (i : S16x512x512.Idx) : ∃ t : Fin cfg0.N, (cfg0.win 3).flush t = true ∧ i ∈ ((cfg0.win 3).blk t).view.set := by
  have h0 : (i 0).val < 16 := (i 0).isLt
  have h1 : (i 1).val < 512 := (i 1).isLt
  have h2 : (i 2).val < 512 := (i 2).isLt
  let t : Fin cfg0.N := ⟨4 * (i 0).val + 3, lt_of_lt_of_eq (by omega : 4 * (i 0).val + 3 < 64) (show (64 : ℕ) = cfg0.N from N_0.symm)⟩
  have ht : t.val = 4 * (i 0).val + 3 := rfl
  refine ⟨t, flush0_3' t (by rw [ht]; omega), ?_⟩
  rw [mem_blk3]
  obtain ⟨-, -, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- Every entry of the first result lies in the block of its batch and column tile. -/
theorem cover2 (i : S16x1024x4096.Idx) : ∃ t : Fin cfg0.N, (cfg0.win 2).flush t = true ∧ i ∈ ((cfg0.win 2).blk t).view.set := by
  have h0 : (i 0).val < 16 := (i 0).isLt
  have h1 : (i 1).val < 1024 := (i 1).isLt
  have h2 : (i 2).val < 4096 := (i 2).isLt
  let t : Fin cfg0.N := ⟨4 * (i 0).val + (i 2).val / 1024, lt_of_lt_of_eq (by omega : 4 * (i 0).val + (i 2).val / 1024 < 64) (show (64 : ℕ) = cfg0.N from N_0.symm)⟩
  have ht : t.val = 4 * (i 0).val + (i 2).val / 1024 := rfl
  refine ⟨t, flush0_2 t, ?_⟩
  rw [mem_blk2]
  obtain ⟨-, -, -, -, -, -, e0, e1, e2, -⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

section Finals

variable (c : Dev nD) (hf0 : ∀ y, ∃ r : ℝ, D0 m c y = (r : EReal)) (hf1 : ∀ y, ∃ r : ℝ, D1 m c y = (r : EReal))
include hf0 hf1

/-- What a batch's last point writes back into the second result is the batch's slab of the row softmax. -/
theorem flushed3_eq (t : Fin cfg0.N) :
    (dats m 0 c).flushed 3 t = ((cfg0.win 3).blk t).view.read (Elt Ideal) (G3 m c) := by
  show (cfg0.win 3).cut (grid0.coords t) ((dats m 0 c).after 3 t) = _
  rw [after0_3]
  have key : (attnAt m c t.val : S1x512x512.Idx → EReal) = fun y => G3 m c (((cfg0.win 3).blk t).view.emb y) := by
    funext y
    have hy0 : (y 0).val < 1 := (y 0).isLt
    have ey : y = ix3 0 (y 1) (y 2) := by
      funext a
      match a with
      | ⟨0, _⟩ => exact Fin.ext (by show (y 0).val = 0; omega)
      | ⟨1, _⟩ => rfl
      | ⟨2, _⟩ => rfl
    obtain ⟨-, -, -, -, -, -, -, -, -, e0, e1, e2⟩ := idx_facts t
    refine (congrArg (attnAt m c t.val) ey).trans ((attnAt_apply m c hf0 hf1 t (y 1) (y 2)).trans ?_)
    simp only [G3]
    refine congr (congr (congrArg _ (Fin.ext ?_)) (Fin.ext ?_)) (Fin.ext ?_)
    · show t.val / 4 = win0_3.index t (0 : Fin 3) * 1 + 1 * (y 0).val; omega
    · show (y 1).val = win0_3.index t (1 : Fin 3) * 512 + 1 * (y 1).val; omega
    · show (y 2).val = win0_3.index t (2 : Fin 3) * 512 + 1 * (y 2).val; omega
  exact key

/-- What point `t` writes back into the first result is its slab of `G2`. -/
theorem flushed2_eq (t : Fin cfg0.N) :
    (dats m 0 c).flushed 2 t = ((cfg0.win 2).blk t).view.read (Elt Ideal) (G2 m c) := by
  show (cfg0.win 2).cut (grid0.coords t) ((dats m 0 c).after 2 t) = _
  rw [after0_2]
  have key : (after2 m c t : S1x1024x1024.Idx → EReal) = fun y => G2 m c (((cfg0.win 2).blk t).view.emb y) := by
    funext y
    have hy0 : (y 0).val < 1 := (y 0).isLt
    have hy1 : (y 1).val < 1024 := (y 1).isLt
    have hy2 : (y 2).val < 1024 := (y 2).isLt
    have hN : t.val < 64 := lt_of_lt_of_eq t.isLt (show cfg0.N = 64 from N_0)
    obtain ⟨-, -, -, -, -, -, e0, e1, e2, -⟩ := idx_facts t
    by_cases hr : (y 1).val < 512
    · have ey : y = ix3 0 ⟨(⟨(y 1).val, hr⟩ : Fin 512).val, by omega⟩ (y 2) := by
        funext a
        match a with
        | ⟨0, _⟩ => exact Fin.ext (by show (y 0).val = 0; omega)
        | ⟨1, _⟩ => rfl
        | ⟨2, _⟩ => rfl
      have hlt : (((cfg0.win 2).blk t).view.emb y 1).val < 512 := by
        show win0_2.index t (1 : Fin 3) * 1024 + 1 * (y 1).val < 512; omega
      refine (congrArg (after2 m c t) ey).trans ((after2_upper m c hf0 hf1 t ⟨(y 1).val, hr⟩ (y 2)).trans ?_)
      simp only [G2]
      rw [dif_pos hlt]
      refine congrArg (D0 m c) ?_
      funext a; apply Fin.ext
      match a with
      | ⟨0, _⟩ => show t.val / 4 = win0_2.index t (0 : Fin 3) * 1 + 1 * (y 0).val; omega
      | ⟨1, _⟩ => show (y 1).val = win0_2.index t (1 : Fin 3) * 1024 + 1 * (y 1).val; omega
      | ⟨2, _⟩ => show (t.val % 4) * 1024 + (y 2).val = win0_2.index t (2 : Fin 3) * 1024 + 1 * (y 2).val; omega
    · have ey : y = ix3 0 ⟨(⟨(y 1).val - 512, by omega⟩ : Fin 512).val + 512, by show (y 1).val - 512 + 512 < 1024; omega⟩ (y 2) := by
        funext a
        match a with
        | ⟨0, _⟩ => exact Fin.ext (by show (y 0).val = 0; omega)
        | ⟨1, _⟩ => exact Fin.ext (by show (y 1).val = (y 1).val - 512 + 512; omega)
        | ⟨2, _⟩ => rfl
      have hge : ¬(((cfg0.win 2).blk t).view.emb y 1).val < 512 := by
        show ¬win0_2.index t (1 : Fin 3) * 1024 + 1 * (y 1).val < 512; omega
      refine (congrArg (after2 m c t) ey).trans ((after2_lower m c hf0 hf1 t ⟨(y 1).val - 512, by omega⟩ (y 2)).trans ?_)
      simp only [G2]
      rw [dif_neg hge]
      refine congr (congr (congrArg _ (Fin.ext ?_)) (Fin.ext ?_)) (Fin.ext ?_)
      · show t.val / 4 = win0_2.index t (0 : Fin 3) * 1 + 1 * (y 0).val; omega
      · show (y 1).val - 512 = win0_2.index t (1 : Fin 3) * 1024 + 1 * (y 1).val - 512; omega
      · show (t.val % 4) * 1024 + (y 2).val = win0_2.index t (2 : Fin 3) * 1024 + 1 * (y 2).val; omega
  exact key

/-- The second result after the run. -/
theorem final3 : (dats m 0 c).arrAt 3 cfg0.N = G3 m c :=
  (dats m 0 c).arrAt_eq_of_cover 3 (G3 m c) (fun t _ => flushed3_eq m c hf0 hf1 t) cover3

/-- The first result (before the last host line un-flattens it) after the run. -/
theorem final2 : (dats m 0 c).arrAt 2 cfg0.N = G2 m c :=
  (dats m 0 c).arrAt_eq_of_cover 2 (G2 m c) (fun t _ => flushed2_eq m c hf0 hf1 t) cover2

end Finals

end Cert.KernelIdeal.Final

end
-- ==== Proof.RefImports.lean ====
/- The reference program's run and its stages read at an index, gathered for the modules that compare them with the kernel. -/
import proofs.«400313_j5523327942720_3_alg».proof.Proof.Gen.ReferenceIdeal.Run
import proofs.«400313_j5523327942720_3_alg».proof.Proof.Gen.ReferenceIdeal.Read
-- ==== Proof.RefSide.lean ====
/-
  The reference program's two results, entry by entry, as the specification's functions of the flattened inputs: its
  batched `dot_general` is the energy, the reduce-max / subtract / exponential / reduce-add / divide chain the row softmax,
  the second `dot_general` the attention-weighted sum, and the concatenation puts the first input's channels before the
  512 computed ones.
-/
import proofs.«400313_j5523327942720_3_alg».proof.Proof.RefImports
import proofs.«400313_j5523327942720_3_alg».proof.Proof.Spec
import Idealize.ShloMosaic.PureOps.Ideal.Laws
import Idealize.ShloMosaic.Lib.Pipeline.Value
import Idealize.ShloMosaic.Lib.ValueIdx

noncomputable section

namespace Cert.RefSide

open Idealize.ShloMosaic Idealize.ShloMosaic.ValueIdx Cert.ReferenceIdeal Cert.ReferenceIdeal.Gen

/-- An input array of @main at the ideal instance. -/
abbrev Arg := (⟨S16x512x64x64, .f32⟩ : BufTy).Contents (Elt Ideal)

/-- The flattening [16,512,64,64] → [16,512,4096] both programs start with. -/
def flat (x : Arg) : Cert.Spec.Flat := shapeCast S16x512x4096 x shapeCasts_S16x512x64x64_S16x512x4096

theorem flat_eq (x : Arg) : flat x = Read.val_main_v0 (F := Ideal) x := rfl

/-! ### Index equations: the composed index functions of the stages, at an index given by its coordinates -/

theorem lidx2_ix (b : Fin 16) (i j : Fin 512) (k : Fin 4096) : Read.lidx_main_v2 (ix3 b i j) k = ix3 b i k :=
  funext fun a => Fin.ext (by match a with | ⟨0, _⟩ => rfl | ⟨1, _⟩ => rfl | ⟨2, _⟩ => rfl)

theorem ridx2_ix (b : Fin 16) (i j : Fin 512) (k : Fin 4096) : Read.ridx_main_v2 (ix3 b i j) k = ix3 b j k :=
  funext fun a => Fin.ext (by match a with | ⟨0, _⟩ => rfl | ⟨1, _⟩ => rfl | ⟨2, _⟩ => rfl)

theorem idx67_ix (b : Fin 16) (i j : Fin 512) : Read.idx_main_v6 (Read.idx_main_v7 (ix3 b i j)) = ix2 b i :=
  funext fun a => Fin.ext (by match a with | ⟨0, _⟩ => rfl | ⟨1, _⟩ => rfl)

theorem idx1112_ix (b : Fin 16) (i j : Fin 512) : Read.idx_main_v11 (Read.idx_main_v12 (ix3 b i j)) = ix2 b i :=
  funext fun a => Fin.ext (by match a with | ⟨0, _⟩ => rfl | ⟨1, _⟩ => rfl)

theorem idx10_ix (b : Fin 16) (i k : Fin 512) : Read.idx_main_v10 (ix2 b i) k = ix3 b i k :=
  funext fun a => Fin.ext (by match a with | ⟨0, _⟩ => rfl | ⟨1, _⟩ => rfl | ⟨2, _⟩ => rfl)

theorem lidx14_ix (b : Fin 16) (j : Fin 512) (n : Fin 4096) (k : Fin 512) : Read.lidx_main_v14 (ix3 b j n) k = ix3 b k j :=
  funext fun a => Fin.ext (by match a with | ⟨0, _⟩ => rfl | ⟨1, _⟩ => rfl | ⟨2, _⟩ => rfl)

theorem ridx14_ix (b : Fin 16) (j : Fin 512) (n : Fin 4096) (k : Fin 512) : Read.ridx_main_v14 (ix3 b j n) k = ix3 b k n :=
  funext fun a => Fin.ext (by match a with | ⟨0, _⟩ => rfl | ⟨1, _⟩ => rfl | ⟨2, _⟩ => rfl)

/-- The reshape back to four axes reads the flat array at (b, j, h·64 + w). -/
theorem idx15_ix (b : Fin 16) (j : Fin 512) (h w : Fin 64) :
    Read.idx_main_v15 (ix4 b j h w) = ix3 b j ⟨h.val * 64 + w.val, by have := h.isLt; have := w.isLt; omega⟩ :=
  funext fun a => Fin.ext (by
    have hb := b.isLt; have hj := j.isLt; have hh := h.isLt; have hw := w.isLt
    match a with
    | ⟨0, _⟩ => show (((b.val * 512 + j.val) * 64 + h.val) * 64 + w.val) / 2097152 = b.val; omega
    | ⟨1, _⟩ => show (((b.val * 512 + j.val) * 64 + h.val) * 64 + w.val) / 4096 % 512 = j.val; omega
    | ⟨2, _⟩ => show (((b.val * 512 + j.val) * 64 + h.val) * 64 + w.val) % 4096 = h.val * 64 + w.val; omega)

/-- The last axis of [16,512,512] is reduced to [16,512]. -/
theorem reduces_d2 : S16x512x512.Reduces [2] S16x512 := by decide

theorem lift_d2_ix (b : Fin 16) (i : Fin 512) (k : Fin 512) : reduces_d2.lift (ix2 b i) k = ix3 b i k :=
  funext fun a => Fin.ext (by match a with | ⟨0, _⟩ => rfl | ⟨1, _⟩ => rfl | ⟨2, _⟩ => rfl)

/-! ### The stages, one at a time -/

/-- The first `dot_general` is the energy. -/
theorem ref_energy (x0 x1 : Arg) (b : Fin 16) (i j : Fin 512) :
    Read.val_main_v2 (F := Ideal) x0 x1 (ix3 b i j) = Cert.Spec.energy (flat x0) (flat x1) b i j := by
  rw [Read.val_main_v2_apply]
  unfold Cert.Spec.energy
  refine Finset.sum_congr rfl fun k _ => ?_
  rw [lidx2_ix, ridx2_ix]
  rfl

/-- The reduce-max from −∞, joined with −∞ once more, is the row's maximum. -/
theorem ref_rowMax (x0 x1 : Arg) (b : Fin 16) (i : Fin 512) :
    Read.val_main_v5 (F := Ideal) x0 x1 (ix2 b i) = Cert.Spec.rowMax (flat x0) (flat x1) b i := by
  rw [Read.val_main_v5_apply, Read.val_main_v4_apply, Read.val_main_cst_0_apply]
  unfold Read.val_main_v3
  rw [Host.reduce_eq_fold_single FloatOps.maximumf _ _ reducesTo_S16x512x512_S16x512_d2 reduces_d2 h_S_ (ix2 b i),
    Read.val_main_cst_apply]
  have hf : (Read.val_main_v2 (F := Ideal) x0 x1 ∘ reduces_d2.lift (ix2 b i))
      = fun j : Fin 512 => Cert.Spec.energy (flat x0) (flat x1) b i j := funext fun k : Fin 512 =>
    (congrArg (Read.val_main_v2 (F := Ideal) x0 x1) (lift_d2_ix b i k)).trans (ref_energy x0 x1 b i k)
  rw [hf]
  rfl

/-- The exponentials of the energies less the row's maximum. -/
theorem ref_expo (x0 x1 : Arg) (b : Fin 16) (i j : Fin 512) :
    Read.val_main_v9 (F := Ideal) x0 x1 (ix3 b i j) = Cert.Spec.expo (flat x0) (flat x1) b i j := by
  rw [Read.val_main_v9_apply, Read.val_main_v8_apply, Read.val_main_v7_apply, Read.val_main_v6_apply, idx67_ix,
    ref_energy, ref_rowMax]
  rfl

/-- The reference's attention result is the specification's row softmax. -/
theorem ref_attn (x0 x1 : Arg) (b : Fin 16) (i j : Fin 512) :
    Read.val_main_v13 (F := Ideal) x0 x1 (ix3 b i j) = Cert.Spec.attn (flat x0) (flat x1) b i j := by
  rw [Read.val_main_v13_apply, Read.val_main_v12_apply, Read.val_main_v11_apply, idx1112_ix, Read.val_main_v10_apply,
    Read.val_main_cst_1_apply, ref_expo]
  unfold Cert.Spec.attn
  simp only [Ideal.hostDivf_def, Ideal.ofBits_def, Ideal.ofBits_zero_f32, zero_add, idx10_ix, ref_expo]

/-- Its first result: channels below 512 are the first input's, the others the attention-weighted sums. -/
theorem ref_out (x0 x1 : Arg) (b : Fin 16) (r : Fin 1024) (h w : Fin 64) :
    Read.val_main_v16 (F := Ideal) x0 x1 (ix4 b r h w)
      = if hr : r.val < 512 then x0 (ix4 b ⟨r.val, hr⟩ h w)
        else Cert.Spec.value (flat x0) (flat x1) b ⟨r.val - 512, by have := r.isLt; omega⟩ ⟨h.val * 64 + w.val, by have := h.isLt; have := w.isLt; omega⟩ := by
  by_cases hr : r.val < 512
  · rw [dif_pos hr]
    unfold Read.val_main_v16
    exact concatenate_pair_apply_left (1 : Fin S16x1024x64x64.rank) x0 (Read.val_main_v15 (F := Ideal) x0 x1)
      concatenates_S16x512x64x64_S16x512x64x64_S16x1024x64x64_d1 (ix4 b r h w) rfl (ix4 b ⟨r.val, hr⟩ h w)
      (fun c => by match c with | ⟨0, _⟩ => rfl | ⟨1, _⟩ => rfl | ⟨2, _⟩ => rfl | ⟨3, _⟩ => rfl)
  · rw [dif_neg hr]
    unfold Read.val_main_v16
    refine (concatenate_pair_apply_right (1 : Fin S16x1024x64x64.rank) x0 (Read.val_main_v15 (F := Ideal) x0 x1)
      concatenates_S16x512x64x64_S16x512x64x64_S16x1024x64x64_d1 (ix4 b r h w) rfl rfl
      (ix4 b ⟨r.val - 512, by have := r.isLt; omega⟩ h w) (fun c hc => ?_) ?_).trans ?_
    · match c with
      | ⟨0, _⟩ => rfl
      | ⟨1, _⟩ => exact absurd rfl hc
      | ⟨2, _⟩ => rfl
      | ⟨3, _⟩ => rfl
    · show (r.val - 512) + 512 = r.val
      omega
    · rw [Read.val_main_v15_apply, idx15_ix, Read.val_main_v14_apply]
      unfold Cert.Spec.value
      refine Finset.sum_congr rfl fun k _ => ?_
      rw [lidx14_ix, ridx14_ix, ref_attn]
      rfl

end Cert.RefSide

end
-- ==== Proof.KernelResult.lean ====
/-
  The kernel's run, with both results named as the reference's own result functions of the kernel's inputs.

  The second result is the array the pipeline wrote block by block: the row softmax, which is the reference's attention
  stage entry by entry. The first result is the last host line's un-flattening [16,1024,4096] → [16,1024,64,64] of the
  array the pipeline wrote; entry (b, r, h, w) is the flat entry (b, r, 64·h + w): the first input's entry for r < 512, and
  the attention-weighted sum of channel r − 512 otherwise — the reference's concatenation, entry by entry.
-/
import proofs.«400313_j5523327942720_3_alg».proof.Proof.KernelFinal
import proofs.«400313_j5523327942720_3_alg».proof.Proof.RefSide

set_option maxRecDepth 16384

noncomputable section

namespace Cert.KernelIdeal.Final

open Idealize.ShloMosaic Idealize.ShloMosaic.TcCoe Idealize.SL.Sem Idealize.ShloMosaic.StableHlo
open Idealize.ShloMosaic.ValueIdx
open Cert.KernelIdeal Cert.KernelIdeal.Gen Cert.KernelIdeal.Body

variable (m : (ℓ : Loc nD τ sig) → Buf (Elt Ideal) ℓ) (ρ : Dev nD → PrngReg)

/-- The kernel's inputs, as the reference's stages take them. -/
abbrev a0 (c : Dev nD) : Cert.RefSide.Arg := m ((c : Thread nD τ).loc main_arg0)
abbrev a1 (c : Dev nD) : Cert.RefSide.Arg := m ((c : Thread nD τ).loc main_arg1)

theorem D0_flat (c : Dev nD) : D0 m c = Cert.RefSide.flat (a0 m c) := D0_eq m c
theorem D1_flat (c : Dev nD) : D1 m c = Cert.RefSide.flat (a1 m c) := D1_eq m c

/-- A flat entry is the input's entry at the split position. -/
theorem flat_apply (x : Cert.RefSide.Arg) (b : Fin 16) (r : Fin 512) (h w : Fin 64) :
    Cert.RefSide.flat x (ix3 b r ⟨h.val * 64 + w.val, by have := h.isLt; have := w.isLt; omega⟩) = x (ix4 b r h w) := by
  unfold Cert.RefSide.flat
  refine shapeCast_apply x _ _ (ix4 b r h w) ?_
  rw [Shape.rowMajor_val_four, Shape.rowMajor_val_three]
  show ((b.val * 512 + r.val) * 64 + h.val) * 64 + w.val = (b.val * 512 + r.val) * 4096 + (h.val * 64 + w.val)
  omega

section

variable (c : Dev nD) (hf0 : ∀ y, ∃ r : ℝ, D0 m c y = (r : EReal)) (hf1 : ∀ y, ∃ r : ℝ, D1 m c y = (r : EReal))
include hf0 hf1

/-- The second result is the reference's attention stage. -/
theorem result_attn : (dats m 0 c).arrAt 3 cfg0.N = Cert.ReferenceIdeal.Read.val_main_v13 (F := Ideal) (a0 m c) (a1 m c) := by
  rw [final3 m c hf0 hf1]
  funext y
  show Cert.Spec.attn (D0 m c) (D1 m c) (y 0) (y 1) (y 2) = Cert.ReferenceIdeal.Read.val_main_v13 (F := Ideal) (a0 m c) (a1 m c) y
  rw [D0_flat, D1_flat, eq_ix3 y]
  exact (Cert.RefSide.ref_attn (a0 m c) (a1 m c) _ _ _).symm

/-- The un-flattened first result is the reference's concatenation. -/
theorem result_out :
    shapeCast S16x1024x64x64 ((dats m 0 c).arrAt 2 cfg0.N) shapeCasts_S16x1024x4096_S16x1024x64x64
      = Cert.ReferenceIdeal.Read.val_main_v16 (F := Ideal) (a0 m c) (a1 m c) := by
  rw [final2 m c hf0 hf1]
  funext y
  obtain ⟨b, r, h, w, rfl⟩ : ∃ (b : Fin 16) (r : Fin 1024) (h w : Fin 64), y = ix4 b r h w := ⟨y 0, y 1, y 2, y 3, eq_ix4 y⟩
  have hh := h.isLt
  have hw := w.isLt
  have hr := r.isLt
  rw [Cert.RefSide.ref_out (a0 m c) (a1 m c) b r h w]
  refine (shapeCast_apply (G2 m c) shapeCasts_S16x1024x4096_S16x1024x64x64 (ix4 b r h w) (ix3 b r ⟨h.val * 64 + w.val, by omega⟩) ?_).trans ?_
  · rw [Shape.rowMajor_val_four, Shape.rowMajor_val_three]
    show (b.val * 1024 + r.val) * 4096 + (h.val * 64 + w.val) = ((b.val * 1024 + r.val) * 64 + h.val) * 64 + w.val
    omega
  · simp only [G2]
    by_cases hlt : r.val < 512
    · rw [dif_pos hlt, dif_pos hlt, D0_flat]
      exact flat_apply (a0 m c) b ⟨r.val, hlt⟩ h w
    · rw [dif_neg hlt, dif_neg hlt, D0_flat, D1_flat]

end

/-- THE KERNEL'S RUN, read: under the precondition both results are the reference's result functions of the kernel's own
    inputs, and the inputs are unchanged. -/
theorem kernel_run
    (hpre : ∀ c : Dev nD, Cert.Pre_finite_inputs.fn (F := Ideal) (m ((c : Thread nD τ).loc main_arg0)) (m ((c : Thread nD τ).loc main_arg1)) = fun _ => 1#1) :
    θ_run defs (onTc (τ := τ) (main (F := Ideal))) ⟨m, fun _ => 0, ρ⟩ (fun r => ∀ c : Dev nD,
      r.2.mem ((c.tc : Thread nD τ).loc main_v3) = Cert.ReferenceIdeal.Read.val_main_v16 (F := Ideal) (a0 m c) (a1 m c)
      ∧ r.2.mem ((c.tc : Thread nD τ).loc main_v2_1) = Cert.ReferenceIdeal.Read.val_main_v13 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  obtain ⟨hf0, hf1⟩ := D_real m c (hpre c)
  refine ⟨?_, ?_, ?_, ?_⟩
  · refine ((h c).2 main_v3 (Pipeline.mem_restRefs_of main_v3 (by decide) (by decide))).trans ?_
    unfold Pipeline.afterTail₀
    show StableHlo.after hostOps1 _ (Proc.devRef .tc main_v3) = _
    after_results
    rw [Pipeline.withArrays_arr spec0 launch0.win.arr_inj c _ _ 2]
    exact result_out m c hf0 hf1
  · exact ((h c).1 3).trans (result_attn m c hf0 hf1)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.KernelIdeal.Final

end
-- ==== Proof.lean ====
/-
  Channel attention: a fused kernel against its plain reference, over the extended reals.

  Both programs flatten the two inputs to [16, 512, 4096], form the energy ∑ₙ x1[b,i,n]·x2[b,j,n], take its row softmax,
  and return the softmax together with the first input's channels followed by the attention-weighted sums
  ∑ᵢ attn[b,i,j]·x1[b,i,n]. The kernel computes the energy as three products of a hi/lo split whose lo part is x − x: for
  finite inputs that part is 0 and the two correction products vanish, which is where the precondition is used. It walks a
  grid of 16 batches by 4 column tiles, computes the softmax at a batch's first tile, keeps its transpose in a scratch
  buffer through the batch, and writes the softmax block back at the batch's last tile.

  The frames (both instances of the kernel) are the pipeline's run over proof data stated in closed form; the value
  claim reads the two arrays that run leaves and identifies them, entry by entry, with the reference's stages.
-/
import proofs.«400313_j5523327942720_3_alg».proof.Defs
import proofs.«400313_j5523327942720_3_alg».proof.Proof.Gen.Kernel
import proofs.«400313_j5523327942720_3_alg».proof.Proof.Gen.KernelIdeal
import proofs.«400313_j5523327942720_3_alg».proof.Proof.Gen.ReferenceIdeal
import proofs.«400313_j5523327942720_3_alg».proof.Proof.Gen.Pre_finite_inputs
import proofs.«400313_j5523327942720_3_alg».proof.Proof.BodyBits.Body
import proofs.«400313_j5523327942720_3_alg».proof.Proof.KernelResult
import Idealize.ShloMosaic.Adequacy
import Idealize.ShloMosaic.Init

noncomputable section

namespace Cert.Proof

open Idealize.ShloMosaic Idealize.ShloMosaic.TcCoe Idealize.SL.Sem

/-- The kernel as printed runs and keeps its inputs. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two rewrites of the idealization: widening a narrowed vector back is the identity on the extended reals. -/
theorem preserves : Cert.preserves_Kernel_KernelIdeal :=
  ⟨IdealRules.truncf_extf.statement Cert.KernelIdeal.S512x4096 .f32 .bf16,
   IdealRules.truncf_extf.statement Cert.KernelIdeal.S512x4096 .f32 .bf16⟩

/-- Both programs end at the reference's two result functions of the (agreeing) inputs. -/
theorem algebraic : Cert.algebraic_KernelIdeal_ReferenceIdeal := by
  intro m ρ m' ρ' hpre hagree
  refine ⟨fun c => Cert.ReferenceIdeal.Read.val_main_v16 (F := Ideal) (Cert.KernelIdeal.Final.a0 m c) (Cert.KernelIdeal.Final.a1 m c),
    fun c => Cert.ReferenceIdeal.Read.val_main_v13 (F := Ideal) (Cert.KernelIdeal.Final.a0 m c) (Cert.KernelIdeal.Final.a1 m c),
    Cert.KernelIdeal.Final.kernel_run m ρ hpre, ?_⟩
  refine (θ_run Cert.ReferenceIdeal.defs _ _).mono (fun _ h c => ⟨?_, ?_, (h c).2.2⟩)
    (Cert.ReferenceIdeal.Value.run (F := Ideal) m' ρ')
  · refine ((h c).1.trans (Cert.ReferenceIdeal.Read.val_main_v16_eq _ _)).trans ?_
    rw [(hagree c).1, (hagree c).2]
  · refine ((h c).2.1.trans (Cert.ReferenceIdeal.Read.val_main_v13_eq _ _)).trans ?_
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
